-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3072 : Shape := ⟨2, ![16384, 3072]⟩
abbrev S16384 : Shape := ⟨1, ![16384]⟩
abbrev S128x3072 : Shape := ⟨2, ![128, 3072]⟩
abbrev S128 : Shape := ⟨1, ![128]⟩
abbrev S16x3072 : Shape := ⟨2, ![16, 3072]⟩
abbrev S16 : Shape := ⟨1, ![16]⟩
abbrev S256x30 : Shape := ⟨2, ![256, 30]⟩
abbrev S256 : Shape := ⟨1, ![256]⟩
abbrev S8x32 : Shape := ⟨2, ![8, 32]⟩
abbrev S8 : Shape := ⟨1, ![8]⟩
abbrev S_ : Shape := ⟨0, ![]⟩

class Facts : Prop where
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S128x3072 : S_.BroadcastsInDim S128x3072 (![] : Fin 0 → Fin S128x3072.rank)
  reducesTo_S128x3072_S_d0_1 : S128x3072.ReducesTo [0, 1] S_
  bcast_S_S128 : S_.BroadcastsInDim S128 (![] : Fin 0 → Fin S128.rank)
  reducesTo_S128_S_d0 : S128.ReducesTo [0] S_
  bcast_S_S16x3072 : S_.BroadcastsInDim S16x3072 (![] : Fin 0 → Fin S16x3072.rank)
  reducesTo_S16x3072_S_d0_1 : S16x3072.ReducesTo [0, 1] S_
  bcast_S_S16 : S_.BroadcastsInDim S16 (![] : Fin 0 → Fin S16.rank)
  reducesTo_S16_S_d0 : S16.ReducesTo [0] S_
  bcast_S_S256x30 : S_.BroadcastsInDim S256x30 (![] : Fin 0 → Fin S256x30.rank)
  reducesTo_S256x30_S_d0_1 : S256x30.ReducesTo [0, 1] S_
  bcast_S_S256 : S_.BroadcastsInDim S256 (![] : Fin 0 → Fin S256.rank)
  reducesTo_S256_S_d0 : S256.ReducesTo [0] S_
  bcast_S_S8x32 : S_.BroadcastsInDim S8x32 (![] : Fin 0 → Fin S8x32.rank)
  reducesTo_S8x32_S_d0_1 : S8x32.ReducesTo [0, 1] S_
  bcast_S_S8 : S_.BroadcastsInDim S8 (![] : Fin 0 → Fin S8.rank)
  reducesTo_S8_S_d0 : S8.ReducesTo [0] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg1 : IVec S16384 32) (main_arg8 : FVec F S8x32 .f32) (main_arg9 : FVec F S8 .f32) (main_v33 : IVec S_ 1) : IVec S_ 1 :=
  let main_v34 : FVec F S8x32 .f32 := Host.absf main_arg8
  let main_cst_12 : FVec F S_ .f32 := constant S_ .f32 0x7F800000#32
  let main_v35 : FVec F S8x32 .f32 := broadcastInDim S8x32 ![] bcast_S_S8x32 main_cst_12
  let main_v36 : IVec S8x32 1 := cmpf .olt main_v34 main_v35
  let main_c_13 : IVec S_ 1 := constantI S_ 1 1#1
  let main_v37 : IVec S_ 1 := (fun x v => Host.reduce IntOp.andi x v reducesTo_S8x32_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_c_16 : IVec S_ 32 := constantI S_ 32 0#32
  let main_v44 : IVec S16384 32 := broadcastInDim S16384 ![] bcast_S_S16384 main_c_16
  let main_v45 : IVec S16384 1 := cmpi .sge main_arg1 main_v44
  let main_c_17 : IVec S_ 32 := constantI S_ 32 8#32
  let main_v46 : IVec S16384 32 := broadcastInDim S16384 ![] bcast_S_S16384 main_c_17
  let main_v47 : IVec S16384 1 := cmpi .slt main_arg1 main_v46
  let main_v48 : IVec S16384 1 := andi main_v45 main_v47
  let main_c_18 : IVec S_ 1 := constantI S_ 1 1#1
  let main_v49 : IVec S_ 1 := (fun x v => Host.reduce IntOp.andi x v reducesTo_S16384_S_d0 h_S_) main_v48 main_c_18
  let main_v50 : IVec S_ 1 := andi main_v43 main_v49
  main_v50

def fn_part1 {F : FTy → Type} [FloatOps F] (main_arg1 : IVec S16384 32) (main_arg5 : FVec F S16 .f32) (main_arg6 : FVec F S256x30 .f32) (main_arg7 : FVec F S256 .f32) (main_arg8 : FVec F S8x32 .f32) (main_arg9 : FVec F S8 .f32) (main_v13 : IVec S_ 1) (main_v16 : IVec S16x3072 1) : IVec S_ 1 :=
  let main_c_5 : IVec S_ 1 := constantI S_ 1 1#1
  let main_v17 : IVec S_ 1 := (fun x v => Host.reduce IntOp.andi x v reducesTo_S16x3072_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S256x30 .f32 := Host.absf main_arg6
  let main_cst_8 : FVec F S_ .f32 := constant S_ .f32 0x7F800000#32
  let main_v25 : FVec F S256x30 .f32 := broadcastInDim S256x30 ![] bcast_S_S256x30 main_cst_8
  let main_v26 : IVec S256x30 1 := cmpf .olt main_v24 main_v25
  let main_c_9 : IVec S_ 1 := constantI S_ 1 1#1
  let main_v27 : IVec S_ 1 := (fun x v => Host.reduce IntOp.andi x v reducesTo_S256x30_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_v33

def fn {F : FTy → Type} [FloatOps F] (main_arg0 : FVec F S16384x3072 .f32) (main_arg1 : IVec S16384 32) (main_arg2 : FVec F S128x3072 .f32) (main_arg3 : FVec F S128 .f32) (main_arg4 : FVec F S16x3072 .f32) (main_arg5 : FVec F S16 .f32) (main_arg6 : FVec F S256x30 .f32) (main_arg7 : FVec F S256 .f32) (main_arg8 : FVec F S8x32 .f32) (main_arg9 : FVec F S8 .f32) : IVec S_ 1 :=
  let main_v0 : FVec F S16384x3072 .f32 := Host.absf main_arg0
  let main_cst : FVec F S_ .f32 := constant S_ .f32 0x7F800000#32
  let main_v1 : FVec F S16384x3072 .f32 := broadcastInDim S16384x3072 ![] bcast_S_S16384x3072 main_cst
  let main_v2 : IVec S16384x3072 1 := cmpf .olt main_v0 main_v1
  let main_c : IVec S_ 1 := constantI S_ 1 1#1
  let main_v3 : IVec S_ 1 := (fun x v => Host.reduce IntOp.andi x v reducesTo_S16384x3072_S_d0_1 h_S_) main_v2 main_c
  let main_v4 : FVec F S128x3072 .f32 := Host.absf main_arg2
  let main_cst_0 : FVec F S_ .f32 := constant S_ .f32 0x7F800000#32
  let main_v5 : FVec F S128x3072 .f32 := broadcastInDim S128x3072 ![] bcast_S_S128x3072 main_cst_0
  let main_v6 : IVec S128x3072 1 := cmpf .olt main_v4 main_v5
  let main_c_1 : IVec S_ 1 := constantI S_ 1 1#1
  let main_v7 : IVec S_ 1 := (fun x v => Host.reduce IntOp.andi x v reducesTo_S128x3072_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S16x3072 .f32 := Host.absf main_arg4
  let main_cst_4 : FVec F S_ .f32 := constant S_ .f32 0x7F800000#32
  let main_v15 : FVec F S16x3072 .f32 := broadcastInDim S16x3072 ![] bcast_S_S16x3072 main_cst_4
  let main_v16 : IVec S16x3072 1 := cmpf .olt main_v14 main_v15
  fn_part1 (F := F) main_arg1 main_arg5 main_arg6 main_arg7 main_arg8 main_arg9 main_v13 main_v16
-- ==== Kernel.lean ====
abbrev S16384x3072 : Shape := ⟨2, ![16384, 3072]⟩
abbrev S16384 : Shape := ⟨1, ![16384]⟩
abbrev S128x3072 : Shape := ⟨2, ![128, 3072]⟩
abbrev S128 : Shape := ⟨1, ![128]⟩
abbrev S16x3072 : Shape := ⟨2, ![16, 3072]⟩
abbrev S16 : Shape := ⟨1, ![16]⟩
abbrev S256x30 : Shape := ⟨2, ![256, 30]⟩
abbrev S256 : Shape := ⟨1, ![256]⟩
abbrev S8x32 : Shape := ⟨2, ![8, 32]⟩
abbrev S8 : Shape := ⟨1, ![8]⟩
abbrev S_ : Shape := ⟨0, ![]⟩
abbrev S16384x1 : Shape := ⟨2, ![16384, 1]⟩
abbrev S144x3072 : Shape := ⟨2, ![144, 3072]⟩
abbrev S3072x144 : Shape := ⟨2, ![3072, 144]⟩
abbrev S144 : Shape := ⟨1, ![144]⟩
abbrev S1x144 : Shape := ⟨2, ![1, 144]⟩
abbrev S30x256 : Shape := ⟨2, ![30, 256]⟩
abbrev S1x256 : Shape := ⟨2, ![1, 256]⟩
abbrev S32x8 : Shape := ⟨2, ![32, 8]⟩
abbrev S1x8 : Shape := ⟨2, ![1, 8]⟩
abbrev S512x3072 : Shape := ⟨2, ![512, 3072]⟩
abbrev S512x1 : Shape := ⟨2, ![512, 1]⟩
abbrev S512x8 : Shape := ⟨2, ![512, 8]⟩
abbrev S512x144 : Shape := ⟨2, ![512, 144]⟩
abbrev S512x128 : Shape := ⟨2, ![512, 128]⟩
abbrev S512x16 : Shape := ⟨2, ![512, 16]⟩
abbrev S512x15 : Shape := ⟨2, ![512, 15]⟩
abbrev S512x30 : Shape := ⟨2, ![512, 30]⟩
abbrev S512x256 : Shape := ⟨2, ![512, 256]⟩
abbrev S512x32 : Shape := ⟨2, ![512, 32]⟩
abbrev S512 : Shape := ⟨1, ![512]⟩

abbrev nBuf : Space → Nat
  | .hbm => 31
  | .vmem => 12
  | .smem => 0
  | _ => 0

abbrev bufTy : (tb : Table) → Fin (tcTables nBuf tb) → BufTy
  | .hbm, ⟨0, _⟩ => ⟨S16384x3072, .f32⟩
  | .hbm, ⟨1, _⟩ => ⟨S16384, .i32⟩
  | .hbm, ⟨2, _⟩ => ⟨S128x3072, .f32⟩
  | .hbm, ⟨3, _⟩ => ⟨S128, .f32⟩
  | .hbm, ⟨4, _⟩ => ⟨S16x3072, .f32⟩
  | .hbm, ⟨5, _⟩ => ⟨S16, .f32⟩
  | .hbm, ⟨6, _⟩ => ⟨S256x30, .f32⟩
  | .hbm, ⟨7, _⟩ => ⟨S256, .f32⟩
  | .hbm, ⟨8, _⟩ => ⟨S8x32, .f32⟩
  | .hbm, ⟨9, _⟩ => ⟨S8, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384x1, .i32⟩
  | .hbm, ⟨19, _⟩ => ⟨S144x3072, .f32⟩
  | .hbm, ⟨20, _⟩ => ⟨S3072x144, .f32⟩
  | .hbm, ⟨21, _⟩ => ⟨S3072x144, .bf16⟩
  | .hbm, ⟨22, _⟩ => ⟨S144, .f32⟩
  | .hbm, ⟨23, _⟩ => ⟨S1x144, .f32⟩
  | .hbm, ⟨24, _⟩ => ⟨S30x256, .f32⟩
  | .hbm, ⟨25, _⟩ => ⟨S30x256, .bf16⟩
  | .hbm, ⟨26, _⟩ => ⟨S1x256, .f32⟩
  | .hbm, ⟨27, _⟩ => ⟨S32x8, .f32⟩
  | .hbm, ⟨28, _⟩ => ⟨S32x8, .bf16⟩
  | .hbm, ⟨29, _⟩ => ⟨S1x8, .f32⟩
  | .hbm, ⟨30, _⟩ => ⟨S16384x1, .f32⟩
  | .local _ .vmem, ⟨0, _⟩ => ⟨S512x3072, .f32⟩
  | .local _ .vmem, ⟨1, _⟩ => ⟨S512x3072, .f32⟩
  | .local _ .vmem, ⟨2, _⟩ => ⟨S512x1, .i32⟩
  | .local _ .vmem, ⟨3, _⟩ => ⟨S512x1, .i32⟩
  | .local _ .vmem, ⟨4, _⟩ => ⟨S3072x144, .bf16⟩
  | .local _ .vmem, ⟨5, _⟩ => ⟨S1x144, .f32⟩
  | .local _ .vmem, ⟨6, _⟩ => ⟨S30x256, .bf16⟩
  | .local _ .vmem, ⟨7, _⟩ => ⟨S1x256, .f32⟩
  | .local _ .vmem, ⟨8, _⟩ => ⟨S32x8, .bf16⟩
  | .local _ .vmem, ⟨9, _⟩ => ⟨S1x8, .f32⟩
  | .local _ .vmem, ⟨10, _⟩ => ⟨S512x1, .f32⟩
  | .local _ .vmem, ⟨11, _⟩ => ⟨S512x1, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S30x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x8 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S16384 : S_.BroadcastsInDim S16384 (![] : Fin 0 → Fin S16384.rank)
  shapeCasts_S16384_S16384x1 : S16384.ShapeCasts S16384x1
  concatenates_S128x3072_S16x3072_S144x3072_d0 : Shape.Concatenates [S128x3072, S16x3072] S144x3072 0
  transposes_S144x3072_S3072x144_1_0 : S144x3072.Transposes [1, 0] S3072x144
  bitsLt_bf16_f32 : FTy.bits .bf16 < FTy.bits .f32
  concatenates_S128_S16_S144_d0 : Shape.Concatenates [S128, S16] S144 0
  shapeCasts_S144_S1x144 : S144.ShapeCasts S1x144
  transposes_S256x30_S30x256_1_0 : S256x30.Transposes [1, 0] S30x256
  shapeCasts_S256_S1x256 : S256.ShapeCasts S1x256
  transposes_S8x32_S32x8_1_0 : S8x32.Transposes [1, 0] S32x8
  shapeCasts_S8_S1x8 : S8.ShapeCasts S1x8
  inb_S512x3072_S512x3072_0_0 : ∀ a, (![0, 0] : Fin 2 → Nat) a + S512x3072.size a ≤ S512x3072.size a
  h_S512x3072 : 0 < S512x3072.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x8_d1_w32 : S512x8.Iotas .tc 32 [1]
  broadcasts_S512x1_S512x8 : S512x1.Broadcasts S512x8
  natLt_1_32 : 1 < 32
  inb_S3072x144_S3072x144_0_0 : ∀ a, (![0, 0] : Fin 2 → Nat) a + S3072x144.size a ≤ S3072x144.size a
  h_S3072x144 : 0 < S3072x144.numel
  shapeCasts_S3072x144_S3072x144 : S3072x144.ShapeCasts S3072x144
  inb_S1x144_S1x144_0_0 : ∀ a, (![0, 0] : Fin 2 → Nat) a + S1x144.size a ≤ S1x144.size a
  h_S1x144 : 0 < S1x144.numel
  shapeCasts_S1x144_S1x144 : S1x144.ShapeCasts S1x144
  broadcasts_S1x144_S512x144 : S1x144.Broadcasts S512x144
  slices_S512x144_o0_0_S512x128 : S512x144.Slices ![0, 0] S512x128
  slices_S512x144_o0_128_S512x16 : S512x144.Slices ![0, 128] S512x16
  slices_S512x128_o0_0_S512x16 : S512x128.Slices ![0, 0] S512x16
  slices_S512x8_o0_0_S512x1 : S512x8.Slices ![0, 0] S512x1
  broadcasts_S512x1_S512x16 : S512x1.Broadcasts S512x16
  slices_S512x128_o0_16_S512x16 : S512x128.Slices ![0, 16] S512x16
  slices_S512x8_o0_1_S512x1 : S512x8.Slices ![0, 1] S512x1
  slices_S512x128_o0_32_S512x16 : S512x128.Slices ![0, 32] S512x16
  slices_S512x8_o0_2_S512x1 : S512x8.Slices ![0, 2] S512x1
  slices_S512x128_o0_48_S512x16 : S512x128.Slices ![0, 48] S512x16
  slices_S512x8_o0_3_S512x1 : S512x8.Slices ![0, 3] S512x1
  slices_S512x128_o0_64_S512x16 : S512x128.Slices ![0, 64] S512x16
  slices_S512x8_o0_4_S512x1 : S512x8.Slices ![0, 4] S512x1
  slices_S512x128_o0_80_S512x16 : S512x128.Slices ![0, 80] S512x16
  slices_S512x8_o0_5_S512x1 : S512x8.Slices ![0, 5] S512x1
  slices_S512x128_o0_96_S512x16 : S512x128.Slices ![0, 96] S512x16
  slices_S512x8_o0_6_S512x1 : S512x8.Slices ![0, 6] S512x1
  slices_S512x128_o0_112_S512x16 : S512x128.Slices ![0, 112] S512x16
  slices_S512x8_o0_7_S512x1 : S512x8.Slices ![0, 7] S512x1
  slices_S512x16_o0_0_S512x15 : S512x16.Slices ![0, 0] S512x15
  slices_S512x16_o0_15_S512x1 : S512x16.Slices ![0, 15] S512x1
  concatenates_S512x15_S512x15_S512x30_d1 : Shape.Concatenates [S512x15, S512x15] S512x30 1
  inb_S30x256_S30x256_0_0 : ∀ a, (![0, 0] : Fin 2 → Nat) a + S30x256.size a ≤ S30x256.size a
  h_S30x256 : 0 < S30x256.numel
  shapeCasts_S30x256_S30x256 : S30x256.ShapeCasts S30x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  slices_S512x256_o0_0_S512x32 : S512x256.Slices ![0, 0] S512x32
  broadcasts_S512x1_S512x32 : S512x1.Broadcasts S512x32
  slices_S512x256_o0_32_S512x32 : S512x256.Slices ![0, 32] S512x32
  slices_S512x256_o0_64_S512x32 : S512x256.Slices ![0, 64] S512x32
  slices_S512x256_o0_96_S512x32 : S512x256.Slices ![0, 96] S512x32
  slices_S512x256_o0_128_S512x32 : S512x256.Slices ![0, 128] S512x32
  slices_S512x256_o0_160_S512x32 : S512x256.Slices ![0, 160] S512x32
  slices_S512x256_o0_192_S512x32 : S512x256.Slices ![0, 192] S512x32
  slices_S512x256_o0_224_S512x32 : S512x256.Slices ![0, 224] S512x32
  inb_S32x8_S32x8_0_0 : ∀ a, (![0, 0] : Fin 2 → Nat) a + S32x8.size a ≤ S32x8.size a
  h_S32x8 : 0 < S32x8.numel
  shapeCasts_S32x8_S32x8 : S32x8.ShapeCasts S32x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  reduces_S512x8_S512 : S512x8.Reduces [1] S512
  shapeCasts_S512_S512x1 : S512.ShapeCasts S512x1
  dot_S512x3072_S3072x144_S512x144_1_0_0_1_n_n_wf : DotDims.WF S512x3072 S3072x144 S512x144 [1] [0] [0] [1] [] []
  dot_S512x30_S30x256_S512x256_1_0_0_1_n_n_wf : DotDims.WF S512x30 S30x256 S512x256 [1] [0] [0] [1] [] []
  dot_S512x32_S32x8_S512x8_1_0_0_1_n_n_wf : DotDims.WF S512x32 S32x8 S512x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S16384x3072.size a
  hwx0_0 : ∀ i : grid0.Coords, EltTy.bits .f32 = 32 ∨ (Rect.block (s := S16384x3072) S512x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .i32 = 32 ∨ (Rect.block (s := S16384x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x144.size a ≤ S3072x144.size a
  hwx0_2 : ∀ i : grid0.Coords, EltTy.bits .bf16 = 32 ∨ (Rect.block (s := S3072x144) S3072x144.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x144.size a ≤ S1x144.size a
  hwx0_3 : ∀ i : grid0.Coords, EltTy.bits .f32 = 32 ∨ (Rect.block (s := S1x144) S1x144.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S30x256.size a ≤ S30x256.size a
  hwx0_4 : ∀ i : grid0.Coords, EltTy.bits .bf16 = 32 ∨ (Rect.block (s := S30x256) S30x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x8.size a ≤ S32x8.size a
  hwx0_6 : ∀ i : grid0.Coords, EltTy.bits .bf16 = 32 ∨ (Rect.block (s := S32x8) S32x8.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8.size a ≤ S1x8.size a
  hwx0_7 : ∀ i : grid0.Coords, EltTy.bits .f32 = 32 ∨ (Rect.block (s := S1x8) S1x8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S16384x1.size a
  hwx0_8 : ∀ i : grid0.Coords, EltTy.bits .f32 = 32 ∨ (Rect.block (s := S16384x1) S512x1.size (cc0_transform_8 i) (hinb0_8 i)).WholeWords (EltTy.packing .f32)

variable [Facts₀]

def dot_S512x3072_S3072x144_S512x144_1_0_0_1_n_n : DotDims S512x3072 S3072x144 S512x144 where
  lhsContracting := [1]
  rhsContracting := [0]
  lhsNonContracting := [0]
  rhsNonContracting := [1]
  lhsBatch := []
  rhsBatch := []
  wf := dot_S512x3072_S3072x144_S512x144_1_0_0_1_n_n_wf
def dot_S512x30_S30x256_S512x256_1_0_0_1_n_n : DotDims S512x30 S30x256 S512x256 where
  lhsContracting := [1]
  rhsContracting := [0]
  lhsNonContracting := [0]
  rhsNonContracting := [1]
  lhsBatch := []
  rhsBatch := []
  wf := dot_S512x30_S30x256_S512x256_1_0_0_1_n_n_wf
def dot_S512x32_S32x8_S512x8_1_0_0_1_n_n : DotDims S512x32 S32x8 S512x8 where
  lhsContracting := [1]
  rhsContracting := [0]
  lhsNonContracting := [0]
  rhsNonContracting := [1]
  lhsBatch := []
  rhsBatch := []
  wf := dot_S512x32_S32x8_S512x8_1_0_0_1_n_n_wf

abbrev win0_0 : Pipeline.Window sig grid0 :=
  Pipeline.Window.ofSpec (Memref.whole main_arg0) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S3072x144.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x144.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S30x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S32x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S512x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x3072 : Shape := ⟨2, ![16384, 3072]⟩
abbrev S16384 : Shape := ⟨1, ![16384]⟩
abbrev S128x3072 : Shape := ⟨2, ![128, 3072]⟩
abbrev S128 : Shape := ⟨1, ![128]⟩
abbrev S16x3072 : Shape := ⟨2, ![16, 3072]⟩
abbrev S16 : Shape := ⟨1, ![16]⟩
abbrev S256x30 : Shape := ⟨2, ![256, 30]⟩
abbrev S256 : Shape := ⟨1, ![256]⟩
abbrev S8x32 : Shape := ⟨2, ![8, 32]⟩
abbrev S8 : Shape := ⟨1, ![8]⟩
abbrev S3072x128 : Shape := ⟨2, ![3072, 128]⟩
abbrev S16384x128 : Shape := ⟨2, ![16384, 128]⟩
abbrev S1x128 : Shape := ⟨2, ![1, 128]⟩
abbrev S16384x8x16 : Shape := ⟨3, ![16384, 8, 16]⟩
abbrev S_ : Shape := ⟨0, ![]⟩
abbrev S16384x1 : Shape := ⟨2, ![16384, 1]⟩
abbrev S16384x2 : Shape := ⟨2, ![16384, 2]⟩
abbrev S16384x16 : Shape := ⟨2, ![16384, 16]⟩
abbrev S3072x16 : Shape := ⟨2, ![3072, 16]⟩
abbrev S1x16 : Shape := ⟨2, ![1, 16]⟩
abbrev S16384x15 : Shape := ⟨2, ![16384, 15]⟩
abbrev S16384x30 : Shape := ⟨2, ![16384, 30]⟩
abbrev S30x256 : Shape := ⟨2, ![30, 256]⟩
abbrev S16384x256 : Shape := ⟨2, ![16384, 256]⟩
abbrev S1x256 : Shape := ⟨2, ![1, 256]⟩
abbrev S16384x8x32 : Shape := ⟨3, ![16384, 8, 32]⟩
abbrev S16384x32 : Shape := ⟨2, ![16384, 32]⟩
abbrev S32x8 : Shape := ⟨2, ![32, 8]⟩
abbrev S16384x8 : Shape := ⟨2, ![16384, 8]⟩
abbrev S1x8 : Shape := ⟨2, ![1, 8]⟩

abbrev nBuf : Space → Nat
  | .hbm => 116
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384, .i32⟩
  | .hbm, ⟨2, _⟩ => ⟨S128x3072, .f32⟩
  | .hbm, ⟨3, _⟩ => ⟨S128, .f32⟩
  | .hbm, ⟨4, _⟩ => ⟨S16x3072, .f32⟩
  | .hbm, ⟨5, _⟩ => ⟨S16, .f32⟩
  | .hbm, ⟨6, _⟩ => ⟨S256x30, .f32⟩
  | .hbm, ⟨7, _⟩ => ⟨S256, .f32⟩
  | .hbm, ⟨8, _⟩ => ⟨S8x32, .f32⟩
  | .hbm, ⟨9, _⟩ => ⟨S8, .f32⟩
  | .hbm, ⟨10, _⟩ => ⟨S16384, .i32⟩
  | .hbm, ⟨11, _⟩ => ⟨S3072x128, .f32⟩
  | .hbm, ⟨12, _⟩ => ⟨S16384x128, .f32⟩
  | .hbm, ⟨13, _⟩ => ⟨S1x128, .f32⟩
  | .hbm, ⟨14, _⟩ => ⟨S16384x128, .f32⟩
  | .hbm, ⟨15, _⟩ => ⟨S16384x128, .f32⟩
  | .hbm, ⟨16, _⟩ => ⟨S16384x8x16, .f32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S16384x1, .i32⟩
  | .hbm, ⟨32, _⟩ => ⟨S16384x1, .i32⟩
  | .hbm, ⟨33, _⟩ => ⟨S16384x2, .i32⟩
  | .hbm, ⟨34, _⟩ => ⟨S16384x16, .f32⟩
  | .hbm, ⟨35, _⟩ => ⟨S3072x16, .f32⟩
  | .hbm, ⟨36, _⟩ => ⟨S16384x16, .f32⟩
  | .hbm, ⟨37, _⟩ => ⟨S1x16, .f32⟩
  | .hbm, ⟨38, _⟩ => ⟨S16384x16, .f32⟩
  | .hbm, ⟨39, _⟩ => ⟨S16384x16, .f32⟩
  | .hbm, ⟨40, _⟩ => ⟨S16384x15, .f32⟩
  | .hbm, ⟨41, _⟩ => ⟨S16384x1, .f32⟩
  | .hbm, ⟨42, _⟩ => ⟨S16384x15, .f32⟩
  | .hbm, ⟨43, _⟩ => ⟨S16384x1, .f32⟩
  | .hbm, ⟨44, _⟩ => ⟨S16384x15, .f32⟩
  | .hbm, ⟨45, _⟩ => ⟨S16384x15, .f32⟩
  | .hbm, ⟨46, _⟩ => ⟨S_, .f32⟩
  | .hbm, ⟨47, _⟩ => ⟨S16384x15, .f32⟩
  | .hbm, ⟨48, _⟩ => ⟨S16384x15, .f32⟩
  | .hbm, ⟨49, _⟩ => ⟨S16384x30, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S16384x30, .f32⟩
  | .hbm, ⟨54, _⟩ => ⟨S16384x30, .f32⟩
  | .hbm, ⟨55, _⟩ => ⟨S_, .f32⟩
  | .hbm, ⟨56, _⟩ => ⟨S16384x30, .f32⟩
  | .hbm, ⟨57, _⟩ => ⟨S16384x30, .f32⟩
  | .hbm, ⟨58, _⟩ => ⟨S30x256, .f32⟩
  | .hbm, ⟨59, _⟩ => ⟨S16384x256, .f32⟩
  | .hbm, ⟨60, _⟩ => ⟨S1x256, .f32⟩
  | .hbm, ⟨61, _⟩ => ⟨S16384x256, .f32⟩
  | .hbm, ⟨62, _⟩ => ⟨S16384x256, .f32⟩
  | .hbm, ⟨63, _⟩ => ⟨S16384x8x32, .f32⟩
  | .hbm, ⟨64, _⟩ => ⟨S_, .i32⟩
  | .hbm, ⟨65, _⟩ => ⟨S16384, .i32⟩
  | .hbm, ⟨66, _⟩ => ⟨S16384, .i1⟩
  | .hbm, ⟨67, _⟩ => ⟨S_, .i32⟩
  | .hbm, ⟨68, _⟩ => ⟨S16384, .i32⟩
  | .hbm, ⟨69, _⟩ => ⟨S16384, .i32⟩
  | .hbm, ⟨70, _⟩ => ⟨S16384, .i32⟩
  | .hbm, ⟨71, _⟩ => ⟨S_, .i32⟩
  | .hbm, ⟨72, _⟩ => ⟨S16384, .i32⟩
  | .hbm, ⟨73, _⟩ => ⟨S16384, .i1⟩
  | .hbm, ⟨74, _⟩ => ⟨S_, .i32⟩
  | .hbm, ⟨75, _⟩ => ⟨S16384, .i32⟩
  | .hbm, ⟨76, _⟩ => ⟨S16384, .i32⟩
  | .hbm, ⟨77, _⟩ => ⟨S16384, .i32⟩
  | .hbm, ⟨78, _⟩ => ⟨S16384x1, .i32⟩
  | .hbm, ⟨79, _⟩ => ⟨S16384x1, .i32⟩
  | .hbm, ⟨80, _⟩ => ⟨S16384x2, .i32⟩
  | .hbm, ⟨81, _⟩ => ⟨S16384x32, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S16384x32, .f32⟩
  | .hbm, ⟨86, _⟩ => ⟨S16384x32, .f32⟩
  | .hbm, ⟨87, _⟩ => ⟨S_, .f32⟩
  | .hbm, ⟨88, _⟩ => ⟨S16384x32, .f32⟩
  | .hbm, ⟨89, _⟩ => ⟨S16384x32, .f32⟩
  | .hbm, ⟨90, _⟩ => ⟨S32x8, .f32⟩
  | .hbm, ⟨91, _⟩ => ⟨S16384x8, .f32⟩
  | .hbm, ⟨92, _⟩ => ⟨S1x8, .f32⟩
  | .hbm, ⟨93, _⟩ => ⟨S16384x8, .f32⟩
  | .hbm, ⟨94, _⟩ => ⟨S16384x8, .f32⟩
  | .hbm, ⟨95, _⟩ => ⟨S_, .i32⟩
  | .hbm, ⟨96, _⟩ => ⟨S16384, .i32⟩
  | .hbm, ⟨97, _⟩ => ⟨S16384, .i1⟩
  | .hbm, ⟨98, _⟩ => ⟨S_, .i32⟩
  | .hbm, ⟨99, _⟩ => ⟨S16384, .i32⟩
  | .hbm, ⟨100, _⟩ => ⟨S16384, .i32⟩
  | .hbm, ⟨101, _⟩ => ⟨S16384, .i32⟩
  | .hbm, ⟨102, _⟩ => ⟨S_, .i32⟩
  | .hbm, ⟨103, _⟩ => ⟨S16384, .i32⟩
  | .hbm, ⟨104, _⟩ => ⟨S16384, .i1⟩
  | .hbm, ⟨105, _⟩ => ⟨S_, .i32⟩
  | .hbm, ⟨106, _⟩ => ⟨S16384, .i32⟩
  | .hbm, ⟨107, _⟩ => ⟨S16384, .i32⟩
  | .hbm, ⟨108, _⟩ => ⟨S16384, .i32⟩
  | .hbm, ⟨109, _⟩ => ⟨S16384x1, .i32⟩
  | .hbm, ⟨110, _⟩ => ⟨S16384x1, .i32⟩
  | .hbm, ⟨111, _⟩ => ⟨S16384x2, .i32⟩
  | .hbm, ⟨112, _⟩ => ⟨S16384, .f32⟩
  | .hbm, ⟨113, _⟩ => ⟨S16384x1, .f32⟩
  | .hbm, ⟨114, _⟩ => ⟨S16384x1, .f32⟩
  | .hbm, ⟨115, _⟩ => ⟨S16384x1, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_cst_4 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_5 : Ref sig .tc := ⟨.hbm, 64, rfl⟩
abbrev main_v42 : Ref sig .tc := ⟨.hbm, 65, rfl⟩
abbrev main_v43 : Ref sig .tc := ⟨.hbm, 66, rfl⟩
abbrev main_c_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_7 : Ref sig .tc := ⟨.hbm, 71, rfl⟩
abbrev main_v47 : Ref sig .tc := ⟨.hbm, 72, rfl⟩
abbrev main_v48 : Ref sig .tc := ⟨.hbm, 73, rfl⟩
abbrev main_c_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_9 : Ref sig .tc := ⟨.hbm, 82, rfl⟩
abbrev main_cst_10 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_11 : Ref sig .tc := ⟨.hbm, 95, rfl⟩
abbrev main_v62 : Ref sig .tc := ⟨.hbm, 96, rfl⟩
abbrev main_v63 : Ref sig .tc := ⟨.hbm, 97, rfl⟩
abbrev main_c_12 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_13 : Ref sig .tc := ⟨.hbm, 102, rfl⟩
abbrev main_v67 : Ref sig .tc := ⟨.hbm, 103, rfl⟩
abbrev main_v68 : Ref sig .tc := ⟨.hbm, 104, rfl⟩
abbrev main_c_14 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩

abbrev nD : Nat := 1
abbrev τ : Topo := Topo.v7x

variable {F : FTy → Type} [FloatOps F]

class Facts₀ : Prop where
  transposes_S128x3072_S3072x128_1_0 : S128x3072.Transposes [1, 0] S3072x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  shapeCasts_S16384x128_S16384x8x16 : S16384x128.ShapeCasts S16384x8x16
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  transposes_S16x3072_S3072x16_1_0 : S16x3072.Transposes [1, 0] S3072x16
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  slices_S16384x16_S16384x15_0_0 : S16384x16.Slices ![0, 0] S16384x15
  slices_S16384x16_S16384x1_0_15 : S16384x16.Slices ![0, 15] S16384x1
  bcast_S_S16384x15 : S_.BroadcastsInDim S16384x15 (![] : Fin 0 → Fin S16384x15.rank)
  concatenates_S16384x15_S16384x15_S16384x30_d1 : Shape.Concatenates [S16384x15, S16384x15] S16384x30 1
  bcast_S_S16384x30 : S_.BroadcastsInDim S16384x30 (![] : Fin 0 → Fin S16384x30.rank)
  transposes_S256x30_S30x256_1_0 : S256x30.Transposes [1, 0] S30x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  shapeCasts_S16384x256_S16384x8x32 : S16384x256.ShapeCasts S16384x8x32
  bcast_S_S16384x32 : S_.BroadcastsInDim S16384x32 (![] : Fin 0 → Fin S16384x32.rank)
  transposes_S8x32_S32x8_1_0 : S8x32.Transposes [1, 0] S32x8
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  dot_S16384x3072_S3072x128_S16384x128_1_0_0_1_n_n_wf : DotDims.WF S16384x3072 S3072x128 S16384x128 [1] [0] [0] [1] [] []
  gather_S16384x8x16_S16384x2_S16384x16_1_01_n_n_01_1_1116_wf : GatherDims.WF S16384x8x16 S16384x2 S16384x16 [1] [0, 1] [] [0, 1] [] 1 ![1, 1, 16]
  dot_S16384x3072_S3072x16_S16384x16_1_0_0_1_n_n_wf : DotDims.WF S16384x3072 S3072x16 S16384x16 [1] [0] [0] [1] [] []
  dot_S16384x30_S30x256_S16384x256_1_0_0_1_n_n_wf : DotDims.WF S16384x30 S30x256 S16384x256 [1] [0] [0] [1] [] []
  gather_S16384x8x32_S16384x2_S16384x32_1_01_n_n_01_1_1132_wf : GatherDims.WF S16384x8x32 S16384x2 S16384x32 [1] [0, 1] [] [0, 1] [] 1 ![1, 1, 32]
  dot_S16384x32_S32x8_S16384x8_1_0_0_1_n_n_wf : DotDims.WF S16384x32 S32x8 S16384x8 [1] [0] [0] [1] [] []
  gather_S16384x8_S16384x2_S16384_n_01_n_n_01_1_11_wf : GatherDims.WF S16384x8 S16384x2 S16384 [] [0, 1] [] [0, 1] [] 1 ![1, 1]

variable [Facts₀]

def dot_S16384x3072_S3072x128_S16384x128_1_0_0_1_n_n : DotDims S16384x3072 S3072x128 S16384x128 where
  lhsContracting := [1]
  rhsContracting := [0]
  lhsNonContracting := [0]
  rhsNonContracting := [1]
  lhsBatch := []
  rhsBatch := []
  wf := dot_S16384x3072_S3072x128_S16384x128_1_0_0_1_n_n_wf
def gather_S16384x8x16_S16384x2_S16384x16_1_01_n_n_01_1_1116 : GatherDims S16384x8x16 S16384x2 S16384x16 where
  offsetDims := [1]
  collapsedSliceDims := [0, 1]
  operandBatchingDims := []
  startIndicesBatchingDims := []
  startIndexMap := [0, 1]
  indexVectorDim := 1
  sliceSizes := ![1, 1, 16]
  wf := gather_S16384x8x16_S16384x2_S16384x16_1_01_n_n_01_1_1116_wf
def dot_S16384x3072_S3072x16_S16384x16_1_0_0_1_n_n : DotDims S16384x3072 S3072x16 S16384x16 where
  lhsContracting := [1]
  rhsContracting := [0]
  lhsNonContracting := [0]
  rhsNonContracting := [1]
  lhsBatch := []
  rhsBatch := []
  wf := dot_S16384x3072_S3072x16_S16384x16_1_0_0_1_n_n_wf
def dot_S16384x30_S30x256_S16384x256_1_0_0_1_n_n : DotDims S16384x30 S30x256 S16384x256 where
  lhsContracting := [1]
  rhsContracting := [0]
  lhsNonContracting := [0]
  rhsNonContracting := [1]
  lhsBatch := []
  rhsBatch := []
  wf := dot_S16384x30_S30x256_S16384x256_1_0_0_1_n_n_wf
def gather_S16384x8x32_S16384x2_S16384x32_1_01_n_n_01_1_1132 : GatherDims S16384x8x32 S16384x2 S16384x32 where
  offsetDims := [1]
  collapsedSliceDims := [0, 1]
  operandBatchingDims := []
  startIndicesBatchingDims := []
  startIndexMap := [0, 1]
  indexVectorDim := 1
  sliceSizes := ![1, 1, 32]
  wf := gather_S16384x8x32_S16384x2_S16384x32_1_01_n_n_01_1_1132_wf
def dot_S16384x32_S32x8_S16384x8_1_0_0_1_n_n : DotDims S16384x32 S32x8 S16384x8 where
  lhsContracting := [1]
  rhsContracting := [0]
  lhsNonContracting := [0]
  rhsNonContracting := [1]
  lhsBatch := []
  rhsBatch := []
  wf := dot_S16384x32_S32x8_S16384x8_1_0_0_1_n_n_wf
def gather_S16384x8_S16384x2_S16384_n_01_n_n_01_1_11 : GatherDims S16384x8 S16384x2 S16384 where
  offsetDims := []
  collapsedSliceDims := [0, 1]
  operandBatchingDims := []
  startIndicesBatchingDims := []
  startIndexMap := [0, 1]
  indexVectorDim := 1
  sliceSizes := ![1, 1]
  wf := gather_S16384x8_S16384x2_S16384_n_01_n_n_01_1_11_wf

class Facts : Prop extends Facts₀ where

variable [Facts]
-- ==== Proof.Spec.lean ====
/-
  The mathematics both programs compute, for ONE row of the batch.

  A row has 144 first-layer pre-activations a₀ … a₁₄₃: eight routed stacks of 16 (a[16k + e]) followed by the 16 shared
  ones (a[128 + e]). With the row's stack k:
    lin e   = a[16k + e] + a[128 + e]                      (e < 15)
    h₁      = clip₀¹ (lin² · 127/128  ‖  lin)              (30 hidden units: the 15 squares, then the 15 linear ones)
    l₂ j    = Σ_i h₁ i · W₂ i j + B₂ j                      (256 = 8 stacks of 32)
    h₂ e    = clip₀¹ (l₂[32k + e])                          (32 hidden units of stack k)
    l₃ c    = Σ_i h₂ i · W₃ i c + B₃ c                      (8 stacks)
    out     = (l₃ k + a[143]) + a[16k + 15]
  The kernel reaches "entry k of a family" by a sum of the eight entries against the indicator of k, the reference by
  an indexed read; `pick8` says the two are one value on the extended reals (0 · x = 0 and 1 · x = x hold for every
  extended real, infinite ones included, so no finiteness is used).
-/
import Idealize.ShloMosaic.PureOps.Ideal
import Idealize.ShloMosaic.Lib.ValueIdx

noncomputable section

open scoped BigOperators

namespace Cert.LayerStack

open Idealize.ShloMosaic

/-- The two clip bounds and the scale 127/128, as the words both programs print. -/
abbrev zeroW : EReal := Ideal.ofBits .f32 0x00000000#32
abbrev oneW : EReal := Ideal.ofBits .f32 0x3F800000#32
abbrev scaleW : EReal := Ideal.ofBits .f32 0x3F7E0000#32

/-- jnp.clip(v, 0, 1) as both programs lower it: the maximum with 0, then the minimum with 1. -/
def clip01 (v : EReal) : EReal := min oneW (max zeroW v)

/-- The sum of the routed and the shared first-layer unit e (e < 15) of stack k. -/
def lin (a : Fin 144 → EReal) (k : Fin 8) (e : Fin 15) : EReal :=
  a ⟨16 * k.val + e.val, by omega⟩ + a ⟨128 + e.val, by omega⟩

/-- The 30 hidden units after the first layer: the 15 scaled squares, then the 15 linear units, clipped. -/
def hid1 (a : Fin 144 → EReal) (k : Fin 8) (i : Fin 30) : EReal :=
  clip01 (if h : i.val < 15 then lin a k ⟨i.val, h⟩ * lin a k ⟨i.val, h⟩ * scaleW else lin a k ⟨i.val - 15, by omega⟩)

/-- The second layer, dense over the eight stacks. -/
def lay2 (a : Fin 144 → EReal) (k : Fin 8) (W2 : Fin 30 → Fin 256 → EReal) (B2 : Fin 256 → EReal) (j : Fin 256) : EReal :=
  (∑ i : Fin 30, hid1 a k i * W2 i j) + B2 j

/-- The 32 hidden units of stack k after the second layer, clipped. -/
def hid2 (a : Fin 144 → EReal) (k : Fin 8) (W2 : Fin 30 → Fin 256 → EReal) (B2 : Fin 256 → EReal) (e : Fin 32) : EReal :=
  clip01 (lay2 a k W2 B2 ⟨32 * k.val + e.val, by omega⟩)

/-- The output layer, dense over the eight stacks. -/
def lay3 (a : Fin 144 → EReal) (k : Fin 8) (W2 : Fin 30 → Fin 256 → EReal) (B2 : Fin 256 → EReal)
    (W3 : Fin 32 → Fin 8 → EReal) (B3 : Fin 8 → EReal) (c : Fin 8) : EReal :=
  (∑ i : Fin 32, hid2 a k W2 B2 i * W3 i c) + B3 c

/-- The row's result: stack k's output unit plus the shared and the routed sixteenth first-layer units. -/
def rowOut (a : Fin 144 → EReal) (k : Fin 8) (W2 : Fin 30 → Fin 256 → EReal) (B2 : Fin 256 → EReal)
    (W3 : Fin 32 → Fin 8 → EReal) (B3 : Fin 8 → EReal) : EReal :=
  (lay3 a k W2 B2 W3 B3 k + a ⟨143, by omega⟩) + a ⟨16 * k.val + 15, by omega⟩

/-! ## The whole array: every row from the argument arrays -/

open Idealize.ShloMosaic.ValueIdx

/-- Row r's 144 first-layer pre-activations from the argument arrays: units 0 … 127 are l1's (weights `w1` [128, 3072],
    bias `b1`), units 128 … 143 l1_fact's (weights `wf` [16, 3072], bias `bf`); each is the row of `x` against the
    unit's weight row, plus its bias. -/
def pre1 (x : FVec Ideal ⟨2, ![16384, 3072]⟩ .f32) (w1 : FVec Ideal ⟨2, ![128, 3072]⟩ .f32) (b1 : FVec Ideal ⟨1, ![128]⟩ .f32)
    (wf : FVec Ideal ⟨2, ![16, 3072]⟩ .f32) (bf : FVec Ideal ⟨1, ![16]⟩ .f32) (r : Fin 16384) (j : Fin 144) : EReal :=
  if h : j.val < 128 then (∑ d : Fin 3072, x (ix2 r d) * w1 (ix2 (⟨j.val, h⟩ : Fin 128) d)) + b1 (ix1 (⟨j.val, h⟩ : Fin 128))
  else (∑ d : Fin 3072, x (ix2 r d) * wf (ix2 (⟨j.val - 128, by omega⟩ : Fin 16) d)) + bf (ix1 (⟨j.val - 128, by omega⟩ : Fin 16))

/-- The stack an index word names (total: a word outside 0 … 7 is never met under the precondition). -/
def stackOf (w : BitVec 32) : Fin 8 := ⟨w.toNat % 8, Nat.mod_lt _ (by decide)⟩

/-- An index word in range is the word of the stack it names. -/
theorem ofNat_stackOf (w : BitVec 32) (h : w.toNat < 8) : BitVec.ofNat 32 (stackOf w).val = w := by
  apply BitVec.eq_of_toNat_eq
  simp only [stackOf, BitVec.toNat_ofNat]
  omega

/-- THE RESULT ARRAY [16384, 1] as one function of the ten argument arrays: entry (r, 0) is row r's `rowOut`, the
    second layer's weight W₂ i j read at `w2` [256, 30] transposed, the output layer's W₃ i c at `wo` [8, 32] transposed. -/
def G (x : FVec Ideal ⟨2, ![16384, 3072]⟩ .f32) (idx : IVec ⟨1, ![16384]⟩ 32) (w1 : FVec Ideal ⟨2, ![128, 3072]⟩ .f32)
    (b1 : FVec Ideal ⟨1, ![128]⟩ .f32) (wf : FVec Ideal ⟨2, ![16, 3072]⟩ .f32) (bf : FVec Ideal ⟨1, ![16]⟩ .f32)
    (w2 : FVec Ideal ⟨2, ![256, 30]⟩ .f32) (b2 : FVec Ideal ⟨1, ![256]⟩ .f32) (wo : FVec Ideal ⟨2, ![8, 32]⟩ .f32)
    (bo : FVec Ideal ⟨1, ![8]⟩ .f32) : FVec Ideal ⟨2, ![16384, 1]⟩ .f32 :=
  fun i => rowOut (pre1 x w1 b1 wf bf (i 0)) (stackOf (idx (ix1 (i 0)))) (fun a j => w2 (ix2 j a)) (fun j => b2 (ix1 j))
    (fun a c => wo (ix2 c a)) (fun c => bo (ix1 c))

/-- The indicator of stack k at stack c, as an extended real. -/
def ind (k c : Fin 8) : EReal := if c = k then 1 else 0

/-- Entry k of a family of eight, as the sum of the eight entries against the indicator of k, added up from zero in the
    order 0, 1, …, 7. -/
theorem pick8 (f : Fin 8 → EReal) (k : Fin 8) :
    (0 : EReal) + f 0 * ind k 0 + f 1 * ind k 1 + f 2 * ind k 2 + f 3 * ind k 3 + f 4 * ind k 4 + f 5 * ind k 5
      + f 6 * ind k 6 + f 7 * ind k 7 = f k := by
  fin_cases k <;> simp [ind]

/-- The same, as a sum over the eight stacks. -/
theorem pick8_sum (f : Fin 8 → EReal) (k : Fin 8) : ∑ c : Fin 8, f c * ind k c = f k := by
  simp [ind, Finset.sum_ite_eq', Finset.mem_univ]

end Cert.LayerStack

end
-- ==== Proof.IndexRange.lean ====
/-
  The precondition read at one row: besides the finiteness of the float arrays, it says of every index word
  ls_indices[r] that 0 ≤ ls_indices[r] and ls_indices[r] < 8 as signed integers (a `jnp.all` of the two compares); a
  word in [0, 8) signed has unsigned value below 8.
-/
import proofs.«419300_j42795054137555_3_alg».proof.Defs
import Idealize.ShloMosaic.Lib.ReduceAll
import Idealize.ShloMosaic.Lib.ValueIdx
import Idealize.ShloMosaic.Lib.Affine

noncomputable section

namespace Cert.Proof.IndexRange

open Idealize.ShloMosaic Idealize.ShloMosaic.ValueIdx Cert.Pre_finite_inputs

variable [Cert.Pre_finite_inputs.Facts]

/-- The scalar shape has one index. -/
instance : Subsingleton S_.Idx := ⟨fun a b => funext fun d => d.elim0⟩

/-- A word that is at least 0 and below 8 as a signed integer is below 8 as a natural number. -/
theorem word_lt (w : BitVec 32) (h0 : IntOp.cmpi .sge w 0#32 = 1#1) (h8 : IntOp.cmpi .slt w 8#32 = 1#1) : w.toNat < 8 := by
  rw [IntOp.cmpi_sge] at h0
  rw [IntOp.cmpi_slt] at h8
  have h32 := w.isLt
  unfold BitVec.toInt at h0 h8
  split at h8 <;> simp at h0 h8 <;> omega

/-- The printed precondition, all ones, at row r: the last conjunct is the `jnp.all` over the rows of
    "0 ≤ ls_indices[r] < 8", so every row's word is in range. -/
theorem idx_of_fn {F : FTy → Type} [FloatOps F] (a0 : FVec F S16384x3072 .f32) (a1 : IVec S16384 32) (a2 : FVec F S128x3072 .f32)
    (a3 : FVec F S128 .f32) (a4 : FVec F S16x3072 .f32) (a5 : FVec F S16 .f32) (a6 : FVec F S256x30 .f32) (a7 : FVec F S256 .f32)
    (a8 : FVec F S8x32 .f32) (a9 : FVec F S8 .f32)
    (h : fn (F := F) a0 a1 a2 a3 a4 a5 a6 a7 a8 a9 = fun _ => 1#1) (r : Fin 16384) : (a1 (ix1 r)).toNat < 8 := by
  have e := congrFun h ix0
  unfold fn at e
  dsimp only at e
  unfold fn_part1 at e
  dsimp only at e
  unfold fn_part2 at e
  dsimp only at e
  change IntOp.andi _ _ = 1#1 at e
  have e49 := (IntOp.andi_eq_one.mp e).2
  have e48 := Host.reduce_andi_all _ _ _ _ _ e49 (ix1 r)
  change IntOp.andi (IntOp.cmpi .sge (a1 (ix1 r)) 0#32) (IntOp.cmpi .slt (a1 (ix1 r)) 8#32) = 1#1 at e48
  obtain ⟨h0, h8⟩ := IntOp.andi_eq_one.mp e48
  exact word_lt _ h0 h8

/-- So under the idealized kernel's precondition every index word of every device's `ls_indices` is below 8. -/
theorem idx_lt (m : (ℓ : Loc Cert.KernelIdeal.nD Cert.KernelIdeal.τ Cert.KernelIdeal.sig) → Buf (Elt Ideal) ℓ)
    (h : Cert.Pre_KernelIdeal m) (c : Dev Cert.KernelIdeal.nD) (r : Fin 16384) :
    (m ((c.tc : Thread Cert.KernelIdeal.nD Cert.KernelIdeal.τ).loc Cert.KernelIdeal.main_arg1) (ix1 r)).toNat < 8 :=
  idx_of_fn _ _ _ _ _ _ _ _ _ _ (h c) r

end Cert.Proof.IndexRange

end
-- ==== Proof.HostSide.lean ====
/-
  What the kernel's pallas_call finds in its operand arrays: the host operations in front of it re-lay the arguments.
  The index column is the index words clamped to [0, 7] (the words themselves when they are in range); the first
  weight block is l1's and l1_fact's weights stacked and transposed, the first bias row their biases joined; the second
  and third weight blocks are l2's and the output layer's weights transposed; the bias rows are the biases as rows.
  A change of float format is the identity at the ideal values.
-/
import proofs.«419300_j42795054137555_3_alg».proof.Proof.Gen.KernelIdeal.Frame
import Idealize.ShloMosaic.Lib.ValueIdx
import Idealize.ShloMosaic.Lib.Pipeline.Value
import Idealize.ShloMosaic.Lib.StableHlo.Run
import Idealize.ShloMosaic.Lib.StableHlo.Predicate

noncomputable section

namespace Cert.KernelIdeal.HostSide

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ)

/-! ## Each operand array as the host operations' term of the arguments -/

theorem V_v1 (c : Dev nD) : (V m c main_v1 : S16384x1.Idx → BitVec 32)
    = shapeCast S16384x1 (minsi (broadcastInDim S16384 ![] bcast_S_S16384 (constantI S_ 32 7#32)) (maxsi (broadcastInDim S16384 ![] bcast_S_S16384 (constantI S_ 32 0#32)) (m ((c : Thread nD τ).loc main_arg1)))) shapeCasts_S16384_S16384x1 := by
  dsimp only [V]
  simp only [hostOps0, hostOps0_1, hostOps0_2, List.flatten_cons, List.flatten_nil, List.append_nil, List.cons_append, List.nil_append]
  after_results
  all_goals rfl

theorem V_v4 (c : Dev nD) : (V m c main_v4 : S3072x144.Idx → EReal)
    = truncf (F := Ideal) .bf16 (transpose S3072x144 [1, 0] (concatenate S144x3072 0 [⟨S128x3072, m ((c : Thread nD τ).loc main_arg2)⟩, ⟨S16x3072, m ((c : Thread nD τ).loc main_arg4)⟩] concatenates_S128x3072_S16x3072_S144x3072_d0) transposes_S144x3072_S3072x144_1_0) bitsLt_bf16_f32 := by
  dsimp only [V]
  simp only [hostOps0, hostOps0_1, hostOps0_2, List.flatten_cons, List.flatten_nil, List.append_nil, List.cons_append, List.nil_append]
  after_results
  all_goals rfl

theorem V_v6 (c : Dev nD) : (V m c main_v6 : S1x144.Idx → EReal)
    = shapeCast S1x144 (concatenate S144 0 [⟨S128, m ((c : Thread nD τ).loc main_arg3)⟩, ⟨S16, m ((c : Thread nD τ).loc main_arg5)⟩] concatenates_S128_S16_S144_d0) shapeCasts_S144_S1x144 := by
  dsimp only [V]
  simp only [hostOps0, hostOps0_1, hostOps0_2, List.flatten_cons, List.flatten_nil, List.append_nil, List.cons_append, List.nil_append]
  after_results
  all_goals rfl

theorem V_v8 (c : Dev nD) : (V m c main_v8 : S30x256.Idx → EReal)
    = truncf (F := Ideal) .bf16 (transpose S30x256 [1, 0] (m ((c : Thread nD τ).loc main_arg6)) transposes_S256x30_S30x256_1_0) bitsLt_bf16_f32 := by
  dsimp only [V]
  simp only [hostOps0, hostOps0_1, hostOps0_2, List.flatten_cons, List.flatten_nil, List.append_nil, List.cons_append, List.nil_append]
  after_results
  all_goals rfl

theorem V_v9 (c : Dev nD) : (V m c main_v9 : S1x256.Idx → EReal)
    = shapeCast S1x256 (m ((c : Thread nD τ).loc main_arg7)) shapeCasts_S256_S1x256 := by
  dsimp only [V]
  simp only [hostOps0, hostOps0_1, hostOps0_2, List.flatten_cons, List.flatten_nil, List.append_nil, List.cons_append, List.nil_append]
  after_results
  all_goals rfl

theorem V_v11 (c : Dev nD) : (V m c main_v11 : S32x8.Idx → EReal)
    = truncf (F := Ideal) .bf16 (transpose S32x8 [1, 0] (m ((c : Thread nD τ).loc main_arg8)) transposes_S8x32_S32x8_1_0) bitsLt_bf16_f32 := by
  dsimp only [V]
  simp only [hostOps0, hostOps0_1, hostOps0_2, List.flatten_cons, List.flatten_nil, List.append_nil, List.cons_append, List.nil_append]
  after_results
  all_goals rfl

theorem V_v12 (c : Dev nD) : (V m c main_v12 : S1x8.Idx → EReal)
    = shapeCast S1x8 (m ((c : Thread nD τ).loc main_arg9)) shapeCasts_S8_S1x8 := by
  dsimp only [V]
  simp only [hostOps0, hostOps0_1, hostOps0_2, List.flatten_cons, List.flatten_nil, List.append_nil, List.cons_append, List.nil_append]
  after_results
  all_goals rfl

/-! ## … and read at an index -/

/-- Clamping a word that is already in [0, 7] to [0, 7] (the maximum with 0, then the minimum with 7, both signed)
    leaves it. -/
theorem clamp_word (w : BitVec 32) (h : w.toNat < 8) : IntOp.minsi 7#32 (IntOp.maxsi 0#32 w) = w := by
  have hti : w.toInt = w.toNat := StableHlo.Predicate.toInt_eq_toNat_of_lt (by omega)
  have h0 : (0#32 : BitVec 32).toInt = 0 := by decide
  have h7 : (7#32 : BitVec 32).toInt = 7 := by decide
  have h1 : IntOp.maxsi 0#32 w = w := by
    unfold IntOp.maxsi
    rw [if_neg]
    simp only [BitVec.slt, hti, h0, decide_eq_true_eq]
    omega
  rw [h1]
  unfold IntOp.minsi
  rw [if_neg]
  simp only [BitVec.slt, hti, h7, decide_eq_true_eq]
  omega

/-- The index column at row r is the row's index word, when that word is in range. -/
theorem v1_apply (c : Dev nD) (r : Fin 16384) (h : (m ((c : Thread nD τ).loc main_arg1) (ix1 r)).toNat < 8) :
    (V m c main_v1 : S16384x1.Idx → BitVec 32) (ix2 r (0 : Fin 1)) = m ((c : Thread nD τ).loc main_arg1) (ix1 r) := by
  rw [V_v1]
  rw [shapeCast_apply _ shapeCasts_S16384_S16384x1 (ix2 r (0 : Fin 1)) (ix1 r)
    (by rw [Shape.rowMajor_val_one, Shape.rowMajor_val_two]; show r.val = r.val * 1 + 0; omega)]
  exact clamp_word _ h

/-- The first weight block at (d, j): unit j's weight for input d — l1's for j < 128, l1_fact's after. -/
theorem v4_apply (c : Dev nD) (d : Fin 3072) (j : Fin 144) :
    (V m c main_v4 : S3072x144.Idx → EReal) (ix2 d j)
      = if h : j.val < 128 then m ((c : Thread nD τ).loc main_arg2) (ix2 (⟨j.val, h⟩ : Fin 128) d)
        else m ((c : Thread nD τ).loc main_arg4) (ix2 (⟨j.val - 128, by omega⟩ : Fin 16) d) := by
  rw [V_v4, truncf_apply]
  rw [transpose_apply [1, 0] _ transposes_S144x3072_S3072x144_1_0 (ix2 d j) (ix2 j d)
    (fun b => match b with | ⟨0, _⟩ => rfl | ⟨1, _⟩ => rfl)]
  split
  · rename_i h
    exact concatenate_pair_apply_left (t := S144x3072) (s₁ := S128x3072) (s₂ := S16x3072) (0 : Fin 2) _ _ concatenates_S128x3072_S16x3072_S144x3072_d0 (ix2 j d) rfl
      (ix2 (⟨j.val, h⟩ : Fin 128) d) (fun b => match b with | ⟨0, _⟩ => rfl | ⟨1, _⟩ => rfl)
  · rename_i h
    exact concatenate_pair_apply_right (t := S144x3072) (s₁ := S128x3072) (s₂ := S16x3072) (0 : Fin 2) _ _ concatenates_S128x3072_S16x3072_S144x3072_d0 (ix2 j d) rfl rfl
      (ix2 (⟨j.val - 128, by omega⟩ : Fin 16) d)
      (fun b hb => match b, hb with | ⟨0, _⟩, hb => absurd rfl hb | ⟨1, _⟩, _ => rfl)
      (by show (j.val - 128) + 128 = j.val; omega)

/-- The first bias row at (0, j): unit j's bias — l1's for j < 128, l1_fact's after. -/
theorem v6_apply (c : Dev nD) (j : Fin 144) :
    (V m c main_v6 : S1x144.Idx → EReal) (ix2 (0 : Fin 1) j)
      = if h : j.val < 128 then m ((c : Thread nD τ).loc main_arg3) (ix1 (⟨j.val, h⟩ : Fin 128))
        else m ((c : Thread nD τ).loc main_arg5) (ix1 (⟨j.val - 128, by omega⟩ : Fin 16)) := by
  rw [V_v6]
  rw [shapeCast_apply _ shapeCasts_S144_S1x144 (ix2 (0 : Fin 1) j) (ix1 j)
    (by rw [Shape.rowMajor_val_one, Shape.rowMajor_val_two]; show j.val = 0 * 144 + j.val; omega)]
  split
  · rename_i h
    exact concatenate_pair_apply_left (t := S144) (s₁ := S128) (s₂ := S16) (0 : Fin 1) _ _ concatenates_S128_S16_S144_d0 (ix1 j) rfl
      (ix1 (⟨j.val, h⟩ : Fin 128)) (fun b => match b with | ⟨0, _⟩ => rfl)
  · rename_i h
    exact concatenate_pair_apply_right (t := S144) (s₁ := S128) (s₂ := S16) (0 : Fin 1) _ _ concatenates_S128_S16_S144_d0 (ix1 j) rfl rfl
      (ix1 (⟨j.val - 128, by omega⟩ : Fin 16))
      (fun b hb => match b, hb with | ⟨0, _⟩, hb => absurd rfl hb)
      (by show (j.val - 128) + 128 = j.val; omega)

/-- The second weight block at (i, j) is l2's weight [j, i]. -/
theorem v8_apply (c : Dev nD) (i : Fin 30) (j : Fin 256) :
    (V m c main_v8 : S30x256.Idx → EReal) (ix2 i j) = m ((c : Thread nD τ).loc main_arg6) (ix2 j i) := by
  rw [V_v8, truncf_apply]
  exact transpose_apply [1, 0] _ transposes_S256x30_S30x256_1_0 (ix2 i j) (ix2 j i)
    (fun b => match b with | ⟨0, _⟩ => rfl | ⟨1, _⟩ => rfl)

/-- The second bias row at (0, j) is l2's bias j. -/
theorem v9_apply (c : Dev nD) (j : Fin 256) :
    (V m c main_v9 : S1x256.Idx → EReal) (ix2 (0 : Fin 1) j) = m ((c : Thread nD τ).loc main_arg7) (ix1 j) := by
  rw [V_v9]
  exact shapeCast_apply _ shapeCasts_S256_S1x256 (ix2 (0 : Fin 1) j) (ix1 j)
    (by rw [Shape.rowMajor_val_one, Shape.rowMajor_val_two]; show j.val = 0 * 256 + j.val; omega)

/-- The output layer's weight block at (i, k) is its weight [k, i]. -/
theorem v11_apply (c : Dev nD) (i : Fin 32) (k : Fin 8) :
    (V m c main_v11 : S32x8.Idx → EReal) (ix2 i k) = m ((c : Thread nD τ).loc main_arg8) (ix2 k i) := by
  rw [V_v11, truncf_apply]
  exact transpose_apply [1, 0] _ transposes_S8x32_S32x8_1_0 (ix2 i k) (ix2 k i)
    (fun b => match b with | ⟨0, _⟩ => rfl | ⟨1, _⟩ => rfl)

/-- The output layer's bias row at (0, k) is its bias k. -/
theorem v12_apply (c : Dev nD) (k : Fin 8) :
    (V m c main_v12 : S1x8.Idx → EReal) (ix2 (0 : Fin 1) k) = m ((c : Thread nD τ).loc main_arg9) (ix1 k) := by
  rw [V_v12]
  exact shapeCast_apply _ shapeCasts_S8_S1x8 (ix2 (0 : Fin 1) k) (ix1 k)
    (by rw [Shape.rowMajor_val_one, Shape.rowMajor_val_two]; show k.val = 0 * 8 + k.val; omega)

end Cert.KernelIdeal.HostSide

end
-- ==== Proof.KernelRow.lean ====
/-
  One row of one block of the kernel, at the ideal values: entry (p, 0) of what a grid point stores is the row
  function `rowOut` of the point's blocks — the row's 144 first-layer pre-activations from the x block, the weight
  block and the bias row; the stack from the row's index word; the later layers' weights and biases read off their
  blocks.
-/
import proofs.«419300_j42795054137555_3_alg».proof.Proof.Gen.KernelIdeal.Frame
import proofs.«419300_j42795054137555_3_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.LayerStack

/-- Row p's 144 first-layer pre-activations as the kernel computes them: the x block's row against the weight block's
    column, plus the bias row's entry. -/
def pre1 (x0 : Vec Ideal S512x3072 .f32) (x2 : Vec Ideal S3072x144 .bf16) (x3 : Vec Ideal S1x144 .f32) (p : Fin 512)
    (j : Fin 144) : EReal :=
  (∑ d : Fin 3072, x0 (ix2 p d) * x2 (ix2 d j)) + x3 (ix2 (0 : Fin 1) j)

/-- A column slice of a 512-row block, read at (p, e): the operand at (p, o + e). -/
theorem slice_apply {N M o : Nat} (x : (⟨2, ![512, N]⟩ : Shape).Idx → EReal)
    (h : (⟨2, ![512, N]⟩ : Shape).Slices ![0, o] ⟨2, ![512, M]⟩) (p : Fin 512) (e : Fin M) :
    extractStridedSlice ⟨2, ![512, M]⟩ ![0, o] x h (ix2 p e)
      = x (ix2 p ⟨o + e.val, Nat.lt_of_lt_of_le (Nat.add_lt_add_left e.isLt o) (h.2 1)⟩) :=
  extractStridedSlice_apply ![0, o] x h (ix2 p e) _ (fun a => by
    match a with
    | ⟨0, _⟩ => show p.val = 0 + p.val; omega
    | ⟨1, _⟩ => rfl)

/-- A column of a 512-row block broadcast along the lanes, read at (p, e): the column at p. -/
theorem bcol_apply {M : Nat} (x : (⟨2, ![512, 1]⟩ : Shape).Idx → EReal)
    (h : (⟨2, ![512, 1]⟩ : Shape).Broadcasts ⟨2, ![512, M]⟩) (p : Fin 512) (e : Fin M) :
    broadcastTo ⟨2, ![512, M]⟩ x h (ix2 p e) = x (ix2 p (0 : Fin 1)) :=
  broadcastTo_apply x h (ix2 p e) (ix2 p (0 : Fin 1)) (fun a => by
    match a with
    | ⟨0, _⟩ => rfl
    | ⟨1, _⟩ => rfl)

/-- The first six terms of the sum of eight entries against the indicator of k, from zero. -/
def part6 (f : Fin 8 → EReal) (k : Fin 8) : EReal :=
  (0 : EReal) + f 0 * ind k 0 + f 1 * ind k 1 + f 2 * ind k 2 + f 3 * ind k 3 + f 4 * ind k 4 + f 5 * ind k 5

/-- The comparison word of two stack numbers, widened and read as a real, is the indicator. -/
theorem word_ind (k c : Fin 8) :
    ((((IntOp.cmpi .eq (BitVec.ofNat 32 c.val) (BitVec.ofNat 32 k.val)).setWidth 32).toInt : ℝ) : EReal) = ind k c := by
  unfold ind
  by_cases h : c = k
  · subst h
    rw [if_pos rfl, IntOp.cmpi_eq.mpr rfl]
    have : ((1#1 : BitVec 1).setWidth 32).toInt = 1 := by decide
    rw [this]; norm_num
  · rw [if_neg h]
    have h0 : IntOp.cmpi .eq (BitVec.ofNat 32 c.val) (BitVec.ofNat 32 k.val) = 0#1 := by
      apply eq_zero_of_ne_one
      intro h1
      have h2 := congrArg BitVec.toNat (IntOp.cmpi_eq.mp h1)
      simp only [BitVec.toNat_ofNat] at h2
      apply h; apply Fin.ext
      have := c.isLt; have := k.isLt; omega
    rw [h0]
    have : ((0#1 : BitVec 1).setWidth 32).toInt = 0 := by decide
    rw [this]; norm_num

/-- The one-hot block at (p, c), when row p's index word names stack k: the indicator of k at c. -/
theorem onehot_apply (x1 : Vec Ideal S512x1 .i32) (p : Fin 512) (k c : Fin 8)
    (hk : x1 (ix2 p (0 : Fin 1)) = BitVec.ofNat 32 k.val) :
    k0_pay2 (F := Ideal) x1 (ix2 p c) = ind k c := by
  unfold k0_pay2
  show FloatOps.sitofp (F := Ideal) .f32 ((IntOp.cmpi .eq (iota .tc S512x8 32 [1] iota_S512x8_d1_w32 (ix2 p c)) (broadcastTo S512x8 (shapeCast S512x1 x1 shapeCasts_S512x1_S512x1) broadcasts_S512x1_S512x8 (ix2 p c))).setWidth 32) = _
  rw [iota_single_apply, shapeCast_self, broadcastTo_apply x1 broadcasts_S512x1_S512x8 (ix2 p c) (ix2 p (0 : Fin 1)) (fun a => by
    match a with
    | ⟨0, _⟩ => rfl
    | ⟨1, _⟩ => rfl), hk]
  exact word_ind k c

/-- The first layer's product: the left operand's row coordinate is the result's row. -/
theorem mm1_lhs_0 (i : S512x144.Idx) (q : dot_S512x3072_S3072x144_S512x144_1_0_0_1_n_n.contr.Idx) :
    (dot_S512x3072_S3072x144_S512x144_1_0_0_1_n_n.lhsIdx i q 0).val = (i 0).val := by
  unfold DotDims.lhsIdx
  rw [dif_neg (show ¬(0 : Fin S512x3072.rank) ∈ dot_S512x3072_S3072x144_S512x144_1_0_0_1_n_n.lhsBatch by decide), dif_pos (show (0 : Fin S512x3072.rank) ∈ dot_S512x3072_S3072x144_S512x144_1_0_0_1_n_n.lhsNonContracting by decide)]
  rfl
/-- … its column coordinate the contraction position. -/
theorem mm1_lhs_1 (i : S512x144.Idx) (q : dot_S512x3072_S3072x144_S512x144_1_0_0_1_n_n.contr.Idx) :
    (dot_S512x3072_S3072x144_S512x144_1_0_0_1_n_n.lhsIdx i q 1).val = (q ⟨0, by decide⟩).val :=
  dot_S512x3072_S3072x144_S512x144_1_0_0_1_n_n.lhsIdx_val_of_single rfl i q
/-- The right operand's row coordinate is the contraction position. -/
theorem mm1_rhs_0 (i : S512x144.Idx) (q : dot_S512x3072_S3072x144_S512x144_1_0_0_1_n_n.contr.Idx) :
    (dot_S512x3072_S3072x144_S512x144_1_0_0_1_n_n.rhsIdx i q 0).val = (q ⟨0, by decide⟩).val :=
  dot_S512x3072_S3072x144_S512x144_1_0_0_1_n_n.rhsIdx_val_of_single rfl i q
/-- … its column coordinate the result's column. -/
theorem mm1_rhs_1 (i : S512x144.Idx) (q : dot_S512x3072_S3072x144_S512x144_1_0_0_1_n_n.contr.Idx) :
    (dot_S512x3072_S3072x144_S512x144_1_0_0_1_n_n.rhsIdx i q 1).val = (i 1).val := by
  unfold DotDims.rhsIdx
  rw [dif_neg (show ¬(1 : Fin S3072x144.rank) ∈ dot_S512x3072_S3072x144_S512x144_1_0_0_1_n_n.rhsBatch by decide), dif_pos (show (1 : Fin S3072x144.rank) ∈ dot_S512x3072_S3072x144_S512x144_1_0_0_1_n_n.rhsNonContracting by decide)]
  rfl

/-- A product into a zero accumulator, read at (p, j): the row of the left operand against the column of the right. -/
theorem mm1_apply (l : FVec Ideal S512x3072 .bf16) (r : FVec Ideal S3072x144 .bf16) (p : Fin 512) (j : Fin 144) :
    matmul dot_S512x3072_S3072x144_S512x144_1_0_0_1_n_n none l r (constant (F := Ideal) S512x144 .f32 0x00000000#32) (ix2 p j)
      = ∑ d : Fin 3072, l (ix2 p d) * r (ix2 d j) := by
  simp only [matmul]
  rw [Ideal.matmul_constant_zero_apply, ← Equiv.sum_comp (contrEquiv1 dot_S512x3072_S3072x144_S512x144_1_0_0_1_n_n 3072 rfl rfl).symm]
  refine Finset.sum_congr rfl fun d _ => ?_
  have hd := contrEquiv1_symm_val dot_S512x3072_S3072x144_S512x144_1_0_0_1_n_n 3072 rfl rfl d
  have el : dot_S512x3072_S3072x144_S512x144_1_0_0_1_n_n.lhsIdx (ix2 p j) ((contrEquiv1 dot_S512x3072_S3072x144_S512x144_1_0_0_1_n_n 3072 rfl rfl).symm d) = ix2 p d := funext fun a => Fin.ext (by
    match a with
    | ⟨0, _⟩ => exact mm1_lhs_0 _ _
    | ⟨1, _⟩ => exact (mm1_lhs_1 _ _).trans hd)
  have er : dot_S512x3072_S3072x144_S512x144_1_0_0_1_n_n.rhsIdx (ix2 p j) ((contrEquiv1 dot_S512x3072_S3072x144_S512x144_1_0_0_1_n_n 3072 rfl rfl).symm d) = ix2 d j := funext fun a => Fin.ext (by
    match a with
    | ⟨0, _⟩ => exact (mm1_rhs_0 _ _).trans hd
    | ⟨1, _⟩ => exact mm1_rhs_1 _ _)
  rw [el, er]

/-- The second layer's product: the left operand's row coordinate is the result's row. -/
theorem mm2_lhs_0 (i : S512x256.Idx) (q : dot_S512x30_S30x256_S512x256_1_0_0_1_n_n.contr.Idx) :
    (dot_S512x30_S30x256_S512x256_1_0_0_1_n_n.lhsIdx i q 0).val = (i 0).val := by
  unfold DotDims.lhsIdx
  rw [dif_neg (show ¬(0 : Fin S512x30.rank) ∈ dot_S512x30_S30x256_S512x256_1_0_0_1_n_n.lhsBatch by decide), dif_pos (show (0 : Fin S512x30.rank) ∈ dot_S512x30_S30x256_S512x256_1_0_0_1_n_n.lhsNonContracting by decide)]
  rfl
/-- … its column coordinate the contraction position. -/
theorem mm2_lhs_1 (i : S512x256.Idx) (q : dot_S512x30_S30x256_S512x256_1_0_0_1_n_n.contr.Idx) :
    (dot_S512x30_S30x256_S512x256_1_0_0_1_n_n.lhsIdx i q 1).val = (q ⟨0, by decide⟩).val :=
  dot_S512x30_S30x256_S512x256_1_0_0_1_n_n.lhsIdx_val_of_single rfl i q
/-- The right operand's row coordinate is the contraction position. -/
theorem mm2_rhs_0 (i : S512x256.Idx) (q : dot_S512x30_S30x256_S512x256_1_0_0_1_n_n.contr.Idx) :
    (dot_S512x30_S30x256_S512x256_1_0_0_1_n_n.rhsIdx i q 0).val = (q ⟨0, by decide⟩).val :=
  dot_S512x30_S30x256_S512x256_1_0_0_1_n_n.rhsIdx_val_of_single rfl i q
/-- … its column coordinate the result's column. -/
theorem mm2_rhs_1 (i : S512x256.Idx) (q : dot_S512x30_S30x256_S512x256_1_0_0_1_n_n.contr.Idx) :
    (dot_S512x30_S30x256_S512x256_1_0_0_1_n_n.rhsIdx i q 1).val = (i 1).val := by
  unfold DotDims.rhsIdx
  rw [dif_neg (show ¬(1 : Fin S30x256.rank) ∈ dot_S512x30_S30x256_S512x256_1_0_0_1_n_n.rhsBatch by decide), dif_pos (show (1 : Fin S30x256.rank) ∈ dot_S512x30_S30x256_S512x256_1_0_0_1_n_n.rhsNonContracting by decide)]
  rfl

/-- A product into a zero accumulator, read at (p, j): the row of the left operand against the column of the right. -/
theorem mm2_apply (l : FVec Ideal S512x30 .bf16) (r : FVec Ideal S30x256 .bf16) (p : Fin 512) (j : Fin 256) :
    matmul dot_S512x30_S30x256_S512x256_1_0_0_1_n_n none l r (constant (F := Ideal) S512x256 .f32 0x00000000#32) (ix2 p j)
      = ∑ d : Fin 30, l (ix2 p d) * r (ix2 d j) := by
  simp only [matmul]
  rw [Ideal.matmul_constant_zero_apply, ← Equiv.sum_comp (contrEquiv1 dot_S512x30_S30x256_S512x256_1_0_0_1_n_n 30 rfl rfl).symm]
  refine Finset.sum_congr rfl fun d _ => ?_
  have hd := contrEquiv1_symm_val dot_S512x30_S30x256_S512x256_1_0_0_1_n_n 30 rfl rfl d
  have el : dot_S512x30_S30x256_S512x256_1_0_0_1_n_n.lhsIdx (ix2 p j) ((contrEquiv1 dot_S512x30_S30x256_S512x256_1_0_0_1_n_n 30 rfl rfl).symm d) = ix2 p d := funext fun a => Fin.ext (by
    match a with
    | ⟨0, _⟩ => exact mm2_lhs_0 _ _
    | ⟨1, _⟩ => exact (mm2_lhs_1 _ _).trans hd)
  have er : dot_S512x30_S30x256_S512x256_1_0_0_1_n_n.rhsIdx (ix2 p j) ((contrEquiv1 dot_S512x30_S30x256_S512x256_1_0_0_1_n_n 30 rfl rfl).symm d) = ix2 d j := funext fun a => Fin.ext (by
    match a with
    | ⟨0, _⟩ => exact (mm2_rhs_0 _ _).trans hd
    | ⟨1, _⟩ => exact mm2_rhs_1 _ _)
  rw [el, er]

/-- The output layer's product: the left operand's row coordinate is the result's row. -/
theorem mm3_lhs_0 (i : S512x8.Idx) (q : dot_S512x32_S32x8_S512x8_1_0_0_1_n_n.contr.Idx) :
    (dot_S512x32_S32x8_S512x8_1_0_0_1_n_n.lhsIdx i q 0).val = (i 0).val := by
  unfold DotDims.lhsIdx
  rw [dif_neg (show ¬(0 : Fin S512x32.rank) ∈ dot_S512x32_S32x8_S512x8_1_0_0_1_n_n.lhsBatch by decide), dif_pos (show (0 : Fin S512x32.rank) ∈ dot_S512x32_S32x8_S512x8_1_0_0_1_n_n.lhsNonContracting by decide)]
  rfl
/-- … its column coordinate the contraction position. -/
theorem mm3_lhs_1 (i : S512x8.Idx) (q : dot_S512x32_S32x8_S512x8_1_0_0_1_n_n.contr.Idx) :
    (dot_S512x32_S32x8_S512x8_1_0_0_1_n_n.lhsIdx i q 1).val = (q ⟨0, by decide⟩).val :=
  dot_S512x32_S32x8_S512x8_1_0_0_1_n_n.lhsIdx_val_of_single rfl i q
/-- The right operand's row coordinate is the contraction position. -/
theorem mm3_rhs_0 (i : S512x8.Idx) (q : dot_S512x32_S32x8_S512x8_1_0_0_1_n_n.contr.Idx) :
    (dot_S512x32_S32x8_S512x8_1_0_0_1_n_n.rhsIdx i q 0).val = (q ⟨0, by decide⟩).val :=
  dot_S512x32_S32x8_S512x8_1_0_0_1_n_n.rhsIdx_val_of_single rfl i q
/-- … its column coordinate the result's column. -/
theorem mm3_rhs_1 (i : S512x8.Idx) (q : dot_S512x32_S32x8_S512x8_1_0_0_1_n_n.contr.Idx) :
    (dot_S512x32_S32x8_S512x8_1_0_0_1_n_n.rhsIdx i q 1).val = (i 1).val := by
  unfold DotDims.rhsIdx
  rw [dif_neg (show ¬(1 : Fin S32x8.rank) ∈ dot_S512x32_S32x8_S512x8_1_0_0_1_n_n.rhsBatch by decide), dif_pos (show (1 : Fin S32x8.rank) ∈ dot_S512x32_S32x8_S512x8_1_0_0_1_n_n.rhsNonContracting by decide)]
  rfl

/-- A product into a zero accumulator, read at (p, j): the row of the left operand against the column of the right. -/
theorem mm3_apply (l : FVec Ideal S512x32 .bf16) (r : FVec Ideal S32x8 .bf16) (p : Fin 512) (j : Fin 8) :
    matmul dot_S512x32_S32x8_S512x8_1_0_0_1_n_n none l r (constant (F := Ideal) S512x8 .f32 0x00000000#32) (ix2 p j)
      = ∑ d : Fin 32, l (ix2 p d) * r (ix2 d j) := by
  simp only [matmul]
  rw [Ideal.matmul_constant_zero_apply, ← Equiv.sum_comp (contrEquiv1 dot_S512x32_S32x8_S512x8_1_0_0_1_n_n 32 rfl rfl).symm]
  refine Finset.sum_congr rfl fun d _ => ?_
  have hd := contrEquiv1_symm_val dot_S512x32_S32x8_S512x8_1_0_0_1_n_n 32 rfl rfl d
  have el : dot_S512x32_S32x8_S512x8_1_0_0_1_n_n.lhsIdx (ix2 p j) ((contrEquiv1 dot_S512x32_S32x8_S512x8_1_0_0_1_n_n 32 rfl rfl).symm d) = ix2 p d := funext fun a => Fin.ext (by
    match a with
    | ⟨0, _⟩ => exact mm3_lhs_0 _ _
    | ⟨1, _⟩ => exact (mm3_lhs_1 _ _).trans hd)
  have er : dot_S512x32_S32x8_S512x8_1_0_0_1_n_n.rhsIdx (ix2 p j) ((contrEquiv1 dot_S512x32_S32x8_S512x8_1_0_0_1_n_n 32 rfl rfl).symm d) = ix2 d j := funext fun a => Fin.ext (by
    match a with
    | ⟨0, _⟩ => exact (mm3_rhs_0 _ _).trans hd
    | ⟨1, _⟩ => exact mm3_rhs_1 _ _)
  rw [el, er]

/-- A bias row broadcast down the rows, read at (p, j): the row at j. -/
theorem brow_apply {N : Nat} (x : (⟨2, ![1, N]⟩ : Shape).Idx → EReal)
    (h : (⟨2, ![1, N]⟩ : Shape).Broadcasts ⟨2, ![512, N]⟩) (hN : N ≠ 1) (p : Fin 512) (j : Fin N) :
    broadcastTo ⟨2, ![512, N]⟩ x h (ix2 p j) = x (ix2 (0 : Fin 1) j) :=
  broadcastTo_apply x h (ix2 p j) (ix2 (0 : Fin 1) j) (fun a => by
    match a with
    | ⟨0, _⟩ => rfl
    | ⟨1, _⟩ => show j.val = if N = 1 then 0 else j.val; rw [if_neg hN])

/-- The dense first layer at (p, j): the row's pre-activation j. -/
theorem pay3_apply (x0 : Vec Ideal S512x3072 .f32) (x2 : Vec Ideal S3072x144 .bf16) (x3 : Vec Ideal S1x144 .f32) (p : Fin 512)
    (j : Fin 144) : k0_pay3 (F := Ideal) x0 x2 x3 (ix2 p j) = pre1 x0 x2 x3 p j := by
  unfold k0_pay3 pre1
  simp only [shapeCast_self]
  rw [addf_apply, mm1_apply, brow_apply _ _ (by decide)]
  rfl

/-- The routed part of the first layer at (p, j), j < 128: pre-activation j. -/
theorem pay4_apply (x0 : Vec Ideal S512x3072 .f32) (x2 : Vec Ideal S3072x144 .bf16) (x3 : Vec Ideal S1x144 .f32) (p : Fin 512)
    (j : Fin 128) : k0_pay4 (F := Ideal) x0 x2 x3 (ix2 p j) = pre1 x0 x2 x3 p ⟨j.val, by omega⟩ := by
  unfold k0_pay4
  rw [slice_apply, pay3_apply]
  exact congrArg (pre1 x0 x2 x3 p) (Fin.ext (Nat.zero_add _))

/-- The shared part of the first layer at (p, j), j < 16: pre-activation 128 + j. -/
theorem pay5_apply (x0 : Vec Ideal S512x3072 .f32) (x2 : Vec Ideal S3072x144 .bf16) (x3 : Vec Ideal S1x144 .f32) (p : Fin 512)
    (j : Fin 16) : k0_pay5 (F := Ideal) x0 x2 x3 (ix2 p j) = pre1 x0 x2 x3 p ⟨128 + j.val, by omega⟩ := by
  unfold k0_pay5
  rw [slice_apply, pay3_apply]

/-- The routed pick's first six terms at (p, e): slices 0 … 5 of sixteen against the one-hot columns 0 … 5, from zero. -/
theorem pay6_apply (x0 : Vec Ideal S512x3072 .f32) (x1 : Vec Ideal S512x1 .i32) (x2 : Vec Ideal S3072x144 .bf16)
    (x3 : Vec Ideal S1x144 .f32) (p : Fin 512) (k : Fin 8) (a : Fin 144 → EReal)
    (H8 : ∀ c : Fin 8, k0_pay2 (F := Ideal) x1 (ix2 p c) = ind k c)
    (H16 : ∀ j : Fin 128, k0_pay4 (F := Ideal) x0 x2 x3 (ix2 p j) = a ⟨j.val, by omega⟩) (e : Fin 16) :
    k0_pay6 (F := Ideal) x0 x1 x2 x3 (ix2 p e) = part6 (fun c => a ⟨16 * c.val + e.val, by omega⟩) k := by
  unfold k0_pay6
  simp only [addf_apply, mulf_apply, broadcast_apply, slice_apply, bcol_apply, H8, H16]
  rw [show FloatOps.ofBits (F := Ideal) .f32 0#32 = (0 : EReal) from Ideal.ofBits_zero_f32]
  rfl

/-- The routed pick: the eight slices of sixteen against the one-hot columns add up to stack k's slice. -/
theorem pay7_apply (v8 : FVec Ideal S512x8 .f32) (v16 : FVec Ideal S512x128 .f32) (v48 : FVec Ideal S512x16 .f32)
    (p : Fin 512) (k : Fin 8) (a : Fin 144 → EReal)
    (H8 : ∀ c : Fin 8, v8 (ix2 p c) = ind k c)
    (H16 : ∀ j : Fin 128, v16 (ix2 p j) = a ⟨j.val, by omega⟩)
    (H48 : ∀ e : Fin 16, v48 (ix2 p e) = part6 (fun c => a ⟨16 * c.val + e.val, by omega⟩) k) (e : Fin 16) :
    k0_pay7 (F := Ideal) v8 v16 v48 (ix2 p e) = a ⟨16 * k.val + e.val, by omega⟩ := by
  unfold k0_pay7
  simp only [addf_apply, mulf_apply, slice_apply, bcol_apply, H8, H16, H48]
  exact pick8 (fun c => a ⟨16 * c.val + e.val, by omega⟩) k

/-- The first fifteen columns of a sixteen-column block, read at (p, e). -/
theorem slice15_apply (x : S512x16.Idx → EReal) (p : Fin 512) (e : Fin 15) :
    extractStridedSlice S512x15 ![0, 0] x slices_S512x16_o0_0_S512x15 (ix2 p e) = x (ix2 p ⟨e.val, by omega⟩) := by
  rw [slice_apply]
  exact congrArg x (congrArg (ix2 p) (Fin.ext (Nat.zero_add _)))

/-- Column 15 of a sixteen-column block, read at (p, 0). -/
theorem slice_last_apply (x : S512x16.Idx → EReal) (p : Fin 512) :
    extractStridedSlice S512x1 ![0, 15] x slices_S512x16_o0_15_S512x1 (ix2 p (0 : Fin 1)) = x (ix2 p (15 : Fin 16)) := by
  rw [slice_apply]; rfl

/-- Two blocks of fifteen columns joined along the lanes: a lane below 15 reads the first block. -/
theorem concat15_left (x₁ x₂ : S512x15.Idx → EReal) (p : Fin 512) (i : Fin 30) (h : i.val < 15) :
    concatenate S512x30 1 [⟨S512x15, x₁⟩, ⟨S512x15, x₂⟩] concatenates_S512x15_S512x15_S512x30_d1 (ix2 p i)
      = x₁ (ix2 p ⟨i.val, h⟩) :=
  concatenate_pair_apply_left 1 x₁ x₂ concatenates_S512x15_S512x15_S512x30_d1 (ix2 p i) rfl (ix2 p ⟨i.val, h⟩) (fun b => by
    match b with
    | ⟨0, _⟩ => rfl
    | ⟨1, _⟩ => rfl)

/-- … and a lane from 15 on reads the second block, fifteen lanes down. -/
theorem concat15_right (x₁ x₂ : S512x15.Idx → EReal) (p : Fin 512) (i : Fin 30) (h : 15 ≤ i.val) :
    concatenate S512x30 1 [⟨S512x15, x₁⟩, ⟨S512x15, x₂⟩] concatenates_S512x15_S512x15_S512x30_d1 (ix2 p i)
      = x₂ (ix2 p ⟨i.val - 15, by omega⟩) :=
  concatenate_pair_apply_right 1 x₁ x₂ concatenates_S512x15_S512x15_S512x30_d1 (ix2 p i) rfl rfl (ix2 p ⟨i.val - 15, by omega⟩)
    (fun b hb => by
      match b with
      | ⟨0, _⟩ => rfl
      | ⟨1, _⟩ => exact absurd rfl hb)
    (by show i.val - 15 + 15 = i.val; omega)

/-- The second dense layer at (p, j), from the routed pick and the shared part of the first layer. -/
theorem pay10_apply (v8 : FVec Ideal S512x8 .f32) (v16 : FVec Ideal S512x128 .f32) (v17 : FVec Ideal S512x16 .f32)
    (v48 : FVec Ideal S512x16 .f32) (x4 : Vec Ideal S30x256 .bf16) (x5 : Vec Ideal S1x256 .f32) (p : Fin 512) (k : Fin 8)
    (a : Fin 144 → EReal)
    (H7 : ∀ e : Fin 16, k0_pay7 (F := Ideal) v8 v16 v48 (ix2 p e) = a ⟨16 * k.val + e.val, by omega⟩)
    (H17 : ∀ e : Fin 16, v17 (ix2 p e) = a ⟨128 + e.val, by omega⟩) (j : Fin 256) :
    k0_pay10 (F := Ideal) v8 v16 v17 v48 x4 x5 (ix2 p j)
      = lay2 a k (fun i j => x4 (ix2 i j)) (fun j => x5 (ix2 (0 : Fin 1) j)) j := by
  unfold k0_pay10 lay2
  simp only [shapeCast_self]
  rw [addf_apply, mm2_apply, brow_apply _ _ (by decide)]
  refine congrArg (· + x5 (ix2 (0 : Fin 1) j)) (Finset.sum_congr rfl fun i _ => ?_)
  refine congrArg (· * x4 (ix2 i j)) ?_
  rw [truncf_apply, minimumf_apply, maximumf_apply, broadcast_apply, broadcast_apply]
  unfold hid1 clip01
  by_cases h : i.val < 15
  · rw [dif_pos h, concat15_left _ _ p i h, mulf_apply, mulf_apply, broadcast_apply, addf_apply, slice15_apply, slice15_apply,
      H7, H17]
    rfl
  · rw [dif_neg h, concat15_right _ _ p i (by omega), addf_apply, slice15_apply, slice15_apply, H7, H17]
    rfl

/-- The routed sixteenth unit: column 15 of the routed pick. -/
theorem pay8_apply (v8 : FVec Ideal S512x8 .f32) (v16 : FVec Ideal S512x128 .f32) (v48 : FVec Ideal S512x16 .f32) (p : Fin 512) :
    k0_pay8 (F := Ideal) v8 v16 v48 (ix2 p (0 : Fin 1)) = k0_pay7 (F := Ideal) v8 v16 v48 (ix2 p (15 : Fin 16)) := by
  unfold k0_pay8
  exact slice_last_apply _ p

/-- The shared sixteenth unit: column 15 of the shared part. -/
theorem pay9_apply (v17 : FVec Ideal S512x16 .f32) (p : Fin 512) :
    k0_pay9 (F := Ideal) v17 (ix2 p (0 : Fin 1)) = v17 (ix2 p (15 : Fin 16)) := by
  unfold k0_pay9
  exact slice_last_apply _ p

/-- The first three terms of the sum of eight entries against the indicator of k, from zero. -/
def part3 (f : Fin 8 → EReal) (k : Fin 8) : EReal := (0 : EReal) + f 0 * ind k 0 + f 1 * ind k 1 + f 2 * ind k 2

/-- The second-layer pick's first three terms at (p, e): slices 0 … 2 of thirty-two against the one-hot columns 0 … 2, from zero. -/
theorem pay11_apply (v8 : FVec Ideal S512x8 .f32) (v16 : FVec Ideal S512x128 .f32) (v17 : FVec Ideal S512x16 .f32)
    (v48 : FVec Ideal S512x16 .f32) (x4 : Vec Ideal S30x256 .bf16) (x5 : Vec Ideal S1x256 .f32) (p : Fin 512) (k : Fin 8)
    (L : Fin 256 → EReal)
    (H8 : ∀ c : Fin 8, v8 (ix2 p c) = ind k c)
    (H79 : ∀ j : Fin 256, k0_pay10 (F := Ideal) v8 v16 v17 v48 x4 x5 (ix2 p j) = L j) (e : Fin 32) :
    k0_pay11 (F := Ideal) v8 v16 v17 v48 x4 x5 (ix2 p e) = part3 (fun c => L ⟨32 * c.val + e.val, by omega⟩) k := by
  unfold k0_pay11
  simp only [addf_apply, mulf_apply, broadcast_apply, slice_apply, bcol_apply, H8, H79]
  rw [show FloatOps.ofBits (F := Ideal) .f32 0#32 = (0 : EReal) from Ideal.ofBits_zero_f32]
  rfl

/-- … and its fourth term: slice 3 against the one-hot column 3. -/
theorem pay12_apply (v8 : FVec Ideal S512x8 .f32) (v16 : FVec Ideal S512x128 .f32) (v17 : FVec Ideal S512x16 .f32)
    (v48 : FVec Ideal S512x16 .f32) (x4 : Vec Ideal S30x256 .bf16) (x5 : Vec Ideal S1x256 .f32) (p : Fin 512) (k : Fin 8)
    (L : Fin 256 → EReal)
    (H8 : ∀ c : Fin 8, v8 (ix2 p c) = ind k c)
    (H79 : ∀ j : Fin 256, k0_pay10 (F := Ideal) v8 v16 v17 v48 x4 x5 (ix2 p j) = L j) (e : Fin 32) :
    k0_pay12 (F := Ideal) v8 v16 v17 v48 x4 x5 (ix2 p e) = L ⟨32 * (3 : Fin 8).val + e.val, by omega⟩ * ind k 3 := by
  unfold k0_pay12
  simp only [mulf_apply, slice_apply, bcol_apply, H8, H79]
  rfl

/-- The lane sum of a block of eight columns, as a column, read at (p, 0). -/
theorem lanesum_apply (v : FVec Ideal S512x8 .f32) (p : Fin 512) :
    shapeCast S512x1 (multiReduction (F := Ideal) .add [1] S512 v 0x00000000#32 reduces_S512x8_S512 (.inl rfl) rfl)
        shapeCasts_S512_S512x1 (ix2 p (0 : Fin 1))
      = ∑ c : Fin 8, v (ix2 p c) := by
  rw [shapeCast_apply _ shapeCasts_S512_S512x1 (ix2 p (0 : Fin 1)) (ix1 p) (by
    rw [Shape.rowMajor_val_two, Shape.rowMajor_val_one]; show p.val = p.val * 1 + 0; omega)]
  refine (Ideal.multiReduction_add_single v 0x00000000#32 reduces_S512x8_S512 (.inl rfl) rfl (ix1 p)).trans ?_
  refine Finset.sum_congr rfl fun c _ => congrArg v ?_
  funext b
  match b with
  | ⟨0, _⟩ => rfl
  | ⟨1, _⟩ => rfl

/-- The output column at (p, 0): stack k's 32 second-layer units, clipped, through the output layer at stack k, plus the
    two first-layer units handed in. -/
theorem pay1_apply (v8 : FVec Ideal S512x8 .f32) (v60 v62 : FVec Ideal S512x1 .f32) (v79 : FVec Ideal S512x256 .f32)
    (v95 v99 : FVec Ideal S512x32 .f32) (x6 : Vec Ideal S32x8 .bf16) (x7 : Vec Ideal S1x8 .f32) (p : Fin 512) (k : Fin 8)
    (L : Fin 256 → EReal)
    (H8 : ∀ c : Fin 8, v8 (ix2 p c) = ind k c)
    (H79 : ∀ j : Fin 256, v79 (ix2 p j) = L j)
    (H95 : ∀ e : Fin 32, v95 (ix2 p e) = part3 (fun c => L ⟨32 * c.val + e.val, by omega⟩) k)
    (H99 : ∀ e : Fin 32, v99 (ix2 p e) = L ⟨32 * (3 : Fin 8).val + e.val, by omega⟩ * ind k 3) :
    k0_pay1 (F := Ideal) v8 v60 v62 v79 v95 v99 x6 x7 (ix2 p (0 : Fin 1))
      = (((∑ i : Fin 32, clip01 (L ⟨32 * k.val + i.val, by omega⟩) * x6 (ix2 i k)) + x7 (ix2 (0 : Fin 1) k))
          + v62 (ix2 p (0 : Fin 1))) + v60 (ix2 p (0 : Fin 1)) := by
  unfold k0_pay1
  simp only [shapeCast_self]
  rw [addf_apply, addf_apply, lanesum_apply]
  refine congrArg (· + v60 (ix2 p (0 : Fin 1))) (congrArg (· + v62 (ix2 p (0 : Fin 1))) ?_)
  rw [← pick8_sum (fun c => (∑ i : Fin 32, clip01 (L ⟨32 * k.val + i.val, by omega⟩) * x6 (ix2 i c)) + x7 (ix2 (0 : Fin 1) c)) k]
  refine Finset.sum_congr rfl fun c _ => ?_
  rw [mulf_apply, H8, addf_apply, mm3_apply, brow_apply _ _ (by decide)]
  refine congrArg (· * ind k c) (congrArg (· + x7 (ix2 (0 : Fin 1) c)) (Finset.sum_congr rfl fun i _ => ?_))
  refine congrArg (· * x6 (ix2 i c)) ?_
  rw [truncf_apply, minimumf_apply, maximumf_apply, broadcast_apply, broadcast_apply]
  show min oneW (max zeroW _) = min oneW (max zeroW _)
  refine congrArg (fun t => min oneW (max zeroW t)) ?_
  simp only [addf_apply, mulf_apply, slice_apply, bcol_apply, H8, H79, H95, H99]
  exact pick8 (fun c => L ⟨32 * c.val + i.val, by omega⟩) k

/-- Entry (p, 0) of the block a grid point stores, when row p's index word names stack k. -/
theorem out_row (x0 : Vec Ideal S512x3072 .f32) (x1 : Vec Ideal S512x1 .i32) (x2 : Vec Ideal S3072x144 .bf16)
    (x3 : Vec Ideal S1x144 .f32) (x4 : Vec Ideal S30x256 .bf16) (x5 : Vec Ideal S1x256 .f32) (x6 : Vec Ideal S32x8 .bf16)
    (x7 : Vec Ideal S1x8 .f32) (p : Fin 512) (k : Fin 8) (hk : x1 (ix2 p (0 : Fin 1)) = BitVec.ofNat 32 k.val) :
    out0_8 x0 x1 x2 x3 x4 x5 x6 x7 (ix2 p (0 : Fin 1))
      = rowOut (pre1 x0 x2 x3 p) k (fun i j => x4 (ix2 i j)) (fun j => x5 (ix2 (0 : Fin 1) j))
          (fun i c => x6 (ix2 i c)) (fun c => x7 (ix2 (0 : Fin 1) c)) := by
  have hz : (![0, 0] : Fin 2 → Nat) = fun _ => 0 := funext fun a => by fin_cases a <;> rfl
  unfold out0_8
  rw [View.canon_unit_zero hz]
  simp only [View.ld_unit_zero (S := S512x3072) hz, View.ld_unit_zero (S := S512x1) hz, View.ld_unit_zero (S := S3072x144) hz,
    View.ld_unit_zero (S := S1x144) hz, View.ld_unit_zero (S := S30x256) hz, View.ld_unit_zero (S := S1x256) hz,
    View.ld_unit_zero (S := S32x8) hz, View.ld_unit_zero (S := S1x8) hz]
  have H8 : ∀ c : Fin 8, k0_pay2 (F := Ideal) x1 (ix2 p c) = ind k c := fun c => onehot_apply x1 p k c hk
  have H16 := pay4_apply x0 x2 x3 p
  have H17 := pay5_apply x0 x2 x3 p
  have H48 := pay6_apply x0 x1 x2 x3 p k (pre1 x0 x2 x3 p) H8 H16
  have H7 := pay7_apply (k0_pay2 x1) (k0_pay4 x0 x2 x3) (k0_pay6 x0 x1 x2 x3) p k (pre1 x0 x2 x3 p) H8 H16 H48
  have H79 := pay10_apply (k0_pay2 x1) (k0_pay4 x0 x2 x3) (k0_pay5 x0 x2 x3) (k0_pay6 x0 x1 x2 x3) x4 x5 p k (pre1 x0 x2 x3 p) H7 H17
  have H95 := pay11_apply (k0_pay2 x1) (k0_pay4 x0 x2 x3) (k0_pay5 x0 x2 x3) (k0_pay6 x0 x1 x2 x3) x4 x5 p k _ H8 H79
  have H99 := pay12_apply (k0_pay2 x1) (k0_pay4 x0 x2 x3) (k0_pay5 x0 x2 x3) (k0_pay6 x0 x1 x2 x3) x4 x5 p k _ H8 H79
  rw [pay1_apply _ _ _ _ _ _ x6 x7 p k _ H8 H79 H95 H99, pay8_apply, pay9_apply, H7, H17]
  rfl

end Cert.KernelIdeal.Row

end
-- ==== Proof.KernelArray.lean ====
/-
  From the blocks to the whole array. Grid point t works on rows 512 t … 512 t + 511: its x block and its index column
  are those rows of `x` and of the clamped index column, the weight and bias blocks are the whole re-laid arrays at
  every point, and what it stores is those rows of the result. Row p of block t is row 512 t + p of the function `G` of
  the argument arrays (the row lemma of the kernel body, with each block read back to the arguments); the 32 blocks
  cover the [16384, 1] result, so after the run the result array is `G`.
-/
import proofs.«419300_j42795054137555_3_alg».proof.Proof.Gen.KernelIdeal.Value
import proofs.«419300_j42795054137555_3_alg».proof.Proof.Spec
import proofs.«419300_j42795054137555_3_alg».proof.Proof.HostSide
import proofs.«419300_j42795054137555_3_alg».proof.Proof.KernelRow
import Idealize.ShloMosaic.Lib.ValueIdx
import Idealize.ShloMosaic.Lib.Pipeline.Value

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.LayerStack
open Idealize.ShloMosaic.Pipeline (Dat)

variable (m : (ℓ : Loc nD τ sig) → Buf (Elt Ideal) ℓ) (ρ : Dev nD → PrngReg)

/-- The result array as the function `G` of device c's ten argument arrays. -/
abbrev Gm (c : Dev nD) : S16384x1.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-! ## Where each window's block sits -/

/-- The printed index maps, decided over the 32 grid points: the x window and the index window move with the output
    window along the rows, every other window stays at block (0, 0), and the output's block row is below 32. -/
theorem idx_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) ≤ 31 ∧ win0_8.index t (1 : Fin 2) = 0 :=
  (by decide +kernel : ∀ t : Fin grid0.N, _)

/-- Every block row of the result is some point's. -/
theorem idx_onto : ∀ q : Fin 32, ∃ t : Fin cfg0.N, win0_8.index t = ![q.val, 0] :=
  (by decide +kernel : ∀ q : Fin 32, ∃ t : Fin grid0.N, win0_8.index t = ![q.val, 0])

/-- The row of the arrays that is row p of point t's blocks. -/
def rowOf (t : Fin cfg0.N) (p : Fin 512) : Fin 16384 :=
  ⟨win0_8.index t (0 : Fin 2) * 512 + p.val, by have := (idx_facts t).2.2.2.2.2.2.2.2.2.2.2.2.2.2.2.2.1; have := p.isLt; omega⟩

/-! ## Each input block, read back to the operand arrays -/

theorem blk0_apply (c : Dev nD) (t : Fin cfg0.N) (p : Fin 512) (d : Fin 3072) :
    (iblk m c 0 t : Vec Ideal S512x3072 .f32) (ix2 p d) = m ((c : Thread nD τ).loc main_arg0) (ix2 (rowOf t p) d) := by
  obtain ⟨e0, e1, -⟩ := idx_facts t
  show V m c main_arg0 (((cfg0.win 0).blk t).view.emb (ix2 p d)) = _
  rw [V_main_arg0]
  refine congrArg _ (funext fun a => Fin.ext ?_)
  match a with
  | ⟨0, _⟩ => show win0_0.index t (0 : Fin 2) * 512 + 1 * p.val = win0_8.index t (0 : Fin 2) * 512 + p.val; omega
  | ⟨1, _⟩ => show win0_0.index t (1 : Fin 2) * 3072 + 1 * d.val = d.val; omega

theorem blk1_apply (c : Dev nD) (t : Fin cfg0.N) (p : Fin 512) :
    (iblk m c 1 t : Vec Ideal S512x1 .i32) (ix2 p (0 : Fin 1)) = (V m c main_v1 : S16384x1.Idx → BitVec 32) (ix2 (rowOf t p) (0 : Fin 1)) := by
  obtain ⟨-, -, e0, e1, -⟩ := idx_facts t
  show V m c main_v1 (((cfg0.win 1).blk t).view.emb (ix2 p (0 : Fin 1))) = _
  refine congrArg _ (funext fun a => Fin.ext ?_)
  match a with
  | ⟨0, _⟩ => show win0_1.index t (0 : Fin 2) * 512 + 1 * p.val = win0_8.index t (0 : Fin 2) * 512 + p.val; omega
  | ⟨1, _⟩ => show win0_1.index t (1 : Fin 2) * 1 + 1 * 0 = 0; omega

theorem blk2_apply (c : Dev nD) (t : Fin cfg0.N) (d : Fin 3072) (j : Fin 144) :
    (iblk m c 2 t : Vec Ideal S3072x144 .bf16) (ix2 d j) = (V m c main_v4 : S3072x144.Idx → EReal) (ix2 d j) := by
  obtain ⟨-, -, -, -, e0, e1, -⟩ := idx_facts t
  show V m c main_v4 (((cfg0.win 2).blk t).view.emb (ix2 d j)) = _
  refine congrArg _ (funext fun a => Fin.ext ?_)
  match a with
  | ⟨0, _⟩ => show win0_2.index t (0 : Fin 2) * 3072 + 1 * d.val = d.val; omega
  | ⟨1, _⟩ => show win0_2.index t (1 : Fin 2) * 144 + 1 * j.val = j.val; omega

theorem blk3_apply (c : Dev nD) (t : Fin cfg0.N) (j : Fin 144) :
    (iblk m c 3 t : Vec Ideal S1x144 .f32) (ix2 (0 : Fin 1) j) = (V m c main_v6 : S1x144.Idx → EReal) (ix2 (0 : Fin 1) j) := by
  obtain ⟨-, -, -, -, -, -, e0, e1, -⟩ := idx_facts t
  show V m c main_v6 (((cfg0.win 3).blk t).view.emb (ix2 (0 : Fin 1) j)) = _
  refine congrArg _ (funext fun a => Fin.ext ?_)
  match a with
  | ⟨0, _⟩ => show win0_3.index t (0 : Fin 2) * 1 + 1 * 0 = 0; omega
  | ⟨1, _⟩ => show win0_3.index t (1 : Fin 2) * 144 + 1 * j.val = j.val; omega

theorem blk4_apply (c : Dev nD) (t : Fin cfg0.N) (i : Fin 30) (j : Fin 256) :
    (iblk m c 4 t : Vec Ideal S30x256 .bf16) (ix2 i j) = (V m c main_v8 : S30x256.Idx → EReal) (ix2 i j) := by
  obtain ⟨-, -, -, -, -, -, -, -, e0, e1, -⟩ := idx_facts t
  show V m c main_v8 (((cfg0.win 4).blk t).view.emb (ix2 i j)) = _
  refine congrArg _ (funext fun a => Fin.ext ?_)
  match a with
  | ⟨0, _⟩ => show win0_4.index t (0 : Fin 2) * 30 + 1 * i.val = i.val; omega
  | ⟨1, _⟩ => show win0_4.index t (1 : Fin 2) * 256 + 1 * j.val = j.val; omega

theorem blk5_apply (c : Dev nD) (t : Fin cfg0.N) (j : Fin 256) :
    (iblk m c 5 t : Vec Ideal S1x256 .f32) (ix2 (0 : Fin 1) j) = (V m c main_v9 : S1x256.Idx → EReal) (ix2 (0 : Fin 1) j) := by
  obtain ⟨-, -, -, -, -, -, -, -, -, -, e0, e1, -⟩ := idx_facts t
  show V m c main_v9 (((cfg0.win 5).blk t).view.emb (ix2 (0 : Fin 1) j)) = _
  refine congrArg _ (funext fun a => Fin.ext ?_)
  match a with
  | ⟨0, _⟩ => show win0_5.index t (0 : Fin 2) * 1 + 1 * 0 = 0; omega
  | ⟨1, _⟩ => show win0_5.index t (1 : Fin 2) * 256 + 1 * j.val = j.val; omega

theorem blk6_apply (c : Dev nD) (t : Fin cfg0.N) (i : Fin 32) (k : Fin 8) :
    (iblk m c 6 t : Vec Ideal S32x8 .bf16) (ix2 i k) = (V m c main_v11 : S32x8.Idx → EReal) (ix2 i k) := by
  obtain ⟨-, -, -, -, -, -, -, -, -, -, -, -, e0, e1, -⟩ := idx_facts t
  show V m c main_v11 (((cfg0.win 6).blk t).view.emb (ix2 i k)) = _
  refine congrArg _ (funext fun a => Fin.ext ?_)
  match a with
  | ⟨0, _⟩ => show win0_6.index t (0 : Fin 2) * 32 + 1 * i.val = i.val; omega
  | ⟨1, _⟩ => show win0_6.index t (1 : Fin 2) * 8 + 1 * k.val = k.val; omega

theorem blk7_apply (c : Dev nD) (t : Fin cfg0.N) (k : Fin 8) :
    (iblk m c 7 t : Vec Ideal S1x8 .f32) (ix2 (0 : Fin 1) k) = (V m c main_v12 : S1x8.Idx → EReal) (ix2 (0 : Fin 1) k) := by
  obtain ⟨-, -, -, -, -, -, -, -, -, -, -, -, -, -, e0, e1, -⟩ := idx_facts t
  show V m c main_v12 (((cfg0.win 7).blk t).view.emb (ix2 (0 : Fin 1) k)) = _
  refine congrArg _ (funext fun a => Fin.ext ?_)
  match a with
  | ⟨0, _⟩ => show win0_7.index t (0 : Fin 2) * 1 + 1 * 0 = 0; omega
  | ⟨1, _⟩ => show win0_7.index t (1 : Fin 2) * 8 + 1 * k.val = k.val; omega

/-! ## What a point writes back is its rows of `G` -/

/-- The first-layer pre-activations of row p of block t, computed from the blocks, are those of row 512 t + p computed
    from the arguments: the weight block's column j is unit j's weight row, the bias row's entry j its bias. -/
theorem pre1_eq (c : Dev nD) (t : Fin cfg0.N) (p : Fin 512) :
    Row.pre1 (iblk m c 0 t) (iblk m c 2 t) (iblk m c 3 t) p
      = pre1 (m ((c : Thread nD τ).loc main_arg0)) (m ((c : Thread nD τ).loc main_arg2)) (m ((c : Thread nD τ).loc main_arg3))
          (m ((c : Thread nD τ).loc main_arg4)) (m ((c : Thread nD τ).loc main_arg5)) (rowOf t p) := by
  funext j
  unfold Row.pre1 pre1
  by_cases h : j.val < 128
  · rw [dif_pos h, blk3_apply, HostSide.v6_apply, dif_pos h]
    refine congrArg (· + _) (Finset.sum_congr rfl fun d _ => ?_)
    rw [blk0_apply, blk2_apply, HostSide.v4_apply, dif_pos h]
  · rw [dif_neg h, blk3_apply, HostSide.v6_apply, dif_neg h]
    refine congrArg (· + _) (Finset.sum_congr rfl fun d _ => ?_)
    rw [blk0_apply, blk2_apply, HostSide.v4_apply, dif_neg h]

/-- WHAT POINT t WRITES BACK is block t of `G` of the arguments, when every index word is in range. -/
theorem flushed_eq (hidx : ∀ (c : Dev nD) (r : Fin 16384), (m ((c : Thread nD τ).loc main_arg1) (ix1 r)).toNat < 8)
    (c : Dev nD) (t : Fin cfg0.N) :
    (dats m 0 c).flushed 8 t = ((cfg0.win 8).blk t).view.read (Elt Ideal) (Gm m c) := by
  rw [Value.flushed8]
  funext j
  obtain ⟨p, q, rfl⟩ : ∃ (p : Fin 512) (q : Fin 1), j = ix2 p q := ⟨j 0, j 1, eq_ix2 j⟩
  obtain rfl : q = 0 := Subsingleton.elim _ _
  have e81 := (idx_facts t).2.2.2.2.2.2.2.2.2.2.2.2.2.2.2.2.2
  have hemb : ((cfg0.win 8).blk t).view.emb (ix2 p (0 : Fin 1)) = ix2 (rowOf t p) (0 : Fin 1) := by
    funext a; apply Fin.ext
    match a with
    | ⟨0, _⟩ => show win0_8.index t (0 : Fin 2) * 512 + 1 * p.val = win0_8.index t (0 : Fin 2) * 512 + p.val; omega
    | ⟨1, _⟩ => show win0_8.index t (1 : Fin 2) * 1 + 1 * 0 = 0; omega
  show out0_8 (iblk m c 0 t) (iblk m c 1 t) (iblk m c 2 t) (iblk m c 3 t) (iblk m c 4 t) (iblk m c 5 t) (iblk m c 6 t) (iblk m c 7 t) (ix2 p (0 : Fin 1))
    = Gm m c (((cfg0.win 8).blk t).view.emb (ix2 p (0 : Fin 1)))
  rw [hemb]
  have hk : (iblk m c 1 t : Vec Ideal S512x1 .i32) (ix2 p (0 : Fin 1))
      = BitVec.ofNat 32 (stackOf (m ((c : Thread nD τ).loc main_arg1) (ix1 (rowOf t p)))).val := by
    rw [blk1_apply, HostSide.v1_apply m c _ (hidx c _), ofNat_stackOf _ (hidx c _)]
  refine (Row.out_row (iblk m c 0 t) (iblk m c 1 t) (iblk m c 2 t) (iblk m c 3 t) (iblk m c 4 t) (iblk m c 5 t) (iblk m c 6 t)
    (iblk m c 7 t) p (stackOf (m ((c : Thread nD τ).loc main_arg1) (ix1 (rowOf t p)))) hk).trans ?_
  have h2 : (fun (i : Fin 30) (j : Fin 256) => (iblk m c 4 t : Vec Ideal S30x256 .bf16) (ix2 i j))
      = fun i j => m ((c : Thread nD τ).loc main_arg6) (ix2 j i) :=
    funext fun i => funext fun j => by rw [blk4_apply, HostSide.v8_apply]
  have h3 : (fun (j : Fin 256) => (iblk m c 5 t : Vec Ideal S1x256 .f32) (ix2 (0 : Fin 1) j))
      = fun j => m ((c : Thread nD τ).loc main_arg7) (ix1 j) :=
    funext fun j => by rw [blk5_apply, HostSide.v9_apply]
  have h4 : (fun (i : Fin 32) (k : Fin 8) => (iblk m c 6 t : Vec Ideal S32x8 .bf16) (ix2 i k))
      = fun i k => m ((c : Thread nD τ).loc main_arg8) (ix2 k i) :=
    funext fun i => funext fun k => by rw [blk6_apply, HostSide.v11_apply]
  have h5 : (fun (k : Fin 8) => (iblk m c 7 t : Vec Ideal S1x8 .f32) (ix2 (0 : Fin 1) k))
      = fun k => m ((c : Thread nD τ).loc main_arg9) (ix1 k) :=
    funext fun k => by rw [blk7_apply, HostSide.v12_apply]
  rw [pre1_eq, h2, h3, h4, h5]
  rfl

/-! ## The 32 blocks cover the result -/

/-- An index of the result is in point t's block iff each coordinate is in the block's range on its axis. -/
theorem mem_blk (t : Fin cfg0.N) (i : S16384x1.Idx) :
    i ∈ ((cfg0.win 8).blk t).view.set ↔ ∀ a : Fin 2, win0_8.index t a * S512x1.size a ≤ (i a).val ∧ (i a).val < win0_8.index t a * S512x1.size a + S512x1.size a := by
  show i ∈ ((View.whole main_v13).slice (win0_8.rect t)).set ↔ _
  rw [View.set_slice_whole, Rect.mem_set_unit]
  exact Iff.rfl

/-- Row r of the result is in the block of the point whose block row is r / 512. -/
theorem cover (i : S16384x1.Idx) : ∃ t : Fin cfg0.N, (cfg0.win 8).flush t = true ∧ i ∈ ((cfg0.win 8).blk t).view.set := by
  have hi0 : (i 0).val < 16384 := (i 0).isLt
  have hi1 : (i 1).val < 1 := (i 1).isLt
  obtain ⟨t, ht⟩ := idx_onto ⟨(i 0).val / 512, by omega⟩
  have q0 : win0_8.index t (0 : Fin 2) = (i 0).val / 512 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 1 ≤ (i 1).val ∧ (i 1).val < win0_8.index t (1 : Fin 2) * 1 + 1; omega

/-- THE RESULT ARRAY after the run is `G` of the arguments. -/
theorem final (hidx : ∀ (c : Dev nD) (r : Fin 16384), (m ((c : Thread nD τ).loc main_arg1) (ix1 r)).toNat < 8) (c : Dev nD) :
    (dats m 0 c).arrAt 8 cfg0.N = Gm m c :=
  (dats m 0 c).arrAt_eq_of_cover 8 (Gm m c) (fun t _ => flushed_eq m hidx c t) cover

/-- The idealized kernel's run, re-posted: the result array at `G` of the arguments, the arguments unchanged. -/
theorem run (hidx : ∀ (c : Dev nD) (r : Fin 16384), (m ((c : Thread nD τ).loc main_arg1) (ix1 r)).toNat < 8) :
    θ_run defs (onTc (τ := τ) (main (F := Ideal))) ⟨m, fun _ => 0, ρ⟩ fun r => ∀ c : Dev nD,
      r.2.mem ((c : Thread nD τ).loc main_v13) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m hidx c), (h c).2⟩) (Value.run_blocks m ρ)

end Cert.KernelIdeal.Whole

end
-- ==== Proof.LibRowGather.lean ====
/-
  A gather that reads, for every row r of a table of start-index pairs, the entry (or the slice along the last axis) of
  an operand at the pair the row holds: what jnp's a[rows, idx] lowers to when rows = arange and idx picks one entry
  of the middle axis per row. StableHLO clamps each start index into the operand; here each component is read signed and
  clamped, and for a pair of small non-negative words in range the clamp is the identity.
-/
import Idealize.ShloMosaic.Lib.ValueIdx
import Idealize.ShloMosaic.Lib.StableHlo.Predicate

noncomputable section

namespace Cert.LibRowGather

open Idealize.ShloMosaic Idealize.ShloMosaic.ValueIdx

variable {α : Type}

/-- A rank-3 operand [R, K, E] gathered at start-index pairs [R, 2] into [R, E] (offset axis the last one, the first two
    axes collapsed and named by the pair): element (r, e) is the operand at (the pair's first word, its second word, e),
    each word read signed and clamped into its axis. -/
theorem gather_pair_slice {R K E w : Nat} (d : GatherDims ⟨3, ![R, K, E]⟩ ⟨2, ![R, 2]⟩ ⟨2, ![R, E]⟩)
    (hoff : d.offsetDims = [1]) (hcoll : d.collapsedSliceDims = [0, 1]) (hob : d.operandBatchingDims = [])
    (hsim : d.startIndexMap = [0, 1]) (hivd : d.indexVectorDim = 1) (hK : 0 < K)
    (x : (⟨3, ![R, K, E]⟩ : Shape).Idx → α) (idx : IVec ⟨2, ![R, 2]⟩ w) (r : Fin R) (e : Fin E) :
    Host.gather d x idx (ix2 r e)
      = x (ix3 (⟨min (idx (ix2 r (0 : Fin 2))).toInt.toNat (R - 1), by have := r.isLt; omega⟩ : Fin R)
            (⟨min (idx (ix2 r (1 : Fin 2))).toInt.toNat (K - 1), by omega⟩ : Fin K) e) := by
  obtain ⟨od, cd, ob, sb, sm, iv, ss, wf⟩ := d
  dsimp only at hoff hcoll hob hsim hivd
  subst hoff hcoll hob hsim hivd
  have hs0 : ss 0 = 1 := wf.2.2.2.2.2.2.2.2.2.2.2.1 0 (by simp)
  have hs1 : ss 1 = 1 := wf.2.2.2.2.2.2.2.2.2.2.2.1 1 (by simp)
  unfold Host.gather
  congr 1
  funext a
  refine Fin.ext ?_
  match a with
  | ⟨0, _⟩ =>
    show GatherDims.start _ (ix2 r e) idx 0 + GatherDims.batchCoord _ (ix2 r e) 0 + GatherDims.offCoord _ (ix2 r e) 0 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (by simp)]
    have hsi : ∀ h, GatherDims.siIdx (⟨[1], [0, 1], [], sb, [0, 1], 1, ss, wf⟩ :
          GatherDims ⟨3, ![R, K, E]⟩ ⟨2, ![R, 2]⟩ ⟨2, ![R, E]⟩) (ix2 r e)
        ⟨List.idxOf (0 : Fin 3) [0, 1], h⟩ = ix2 r (0 : Fin 2) := by
      intro h
      funext b; refine Fin.ext ?_
      match b with
      | ⟨0, _⟩ => rfl
      | ⟨1, _⟩ => rfl
    rw [hsi]
    show min _ (R - ss 0) = _
    rw [hs0]
  | ⟨1, _⟩ =>
    show GatherDims.start _ (ix2 r e) idx 1 + GatherDims.batchCoord _ (ix2 r e) 1 + GatherDims.offCoord _ (ix2 r e) 1 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (by simp)]
    have hsi : ∀ h, GatherDims.siIdx (⟨[1], [0, 1], [], sb, [0, 1], 1, ss, wf⟩ :
          GatherDims ⟨3, ![R, K, E]⟩ ⟨2, ![R, 2]⟩ ⟨2, ![R, E]⟩) (ix2 r e)
        ⟨List.idxOf (1 : Fin 3) [0, 1], h⟩ = ix2 r (1 : Fin 2) := by
      intro h
      funext b; refine Fin.ext ?_
      match b with
      | ⟨0, _⟩ => rfl
      | ⟨1, _⟩ => rfl
    rw [hsi]
    show min _ (K - ss 1) = _
    rw [hs1]
  | ⟨2, _⟩ =>
    show GatherDims.start _ (ix2 r e) idx 2 + GatherDims.batchCoord _ (ix2 r e) 2 + GatherDims.offCoord _ (ix2 r e) 2 = _
    rw [GatherDims.batchCoord_eq_zero _ _ _ List.not_mem_nil]
    unfold GatherDims.start
    rw [dif_neg (by simp)]
    unfold GatherDims.offCoord
    rw [dif_pos (by rw [GatherDims.mem_sKept]; simp)]
    simp only [Nat.zero_add]
    rfl

/-- The same for a rank-2 operand [R, K] gathered at start-index pairs [R, 2] into [R] (no offset axis, both axes
    collapsed): element r is the operand at (the pair's first word, its second word), each read signed and clamped. -/
theorem gather_pair_entry {R K w : Nat} (d : GatherDims ⟨2, ![R, K]⟩ ⟨2, ![R, 2]⟩ ⟨1, ![R]⟩)
    (hoff : d.offsetDims = []) (hcoll : d.collapsedSliceDims = [0, 1]) (hob : d.operandBatchingDims = [])
    (hsim : d.startIndexMap = [0, 1]) (hivd : d.indexVectorDim = 1) (hK : 0 < K)
    (x : (⟨2, ![R, K]⟩ : Shape).Idx → α) (idx : IVec ⟨2, ![R, 2]⟩ w) (r : Fin R) :
    Host.gather d x idx (ix1 r)
      = x (ix2 (⟨min (idx (ix2 r (0 : Fin 2))).toInt.toNat (R - 1), by have := r.isLt; omega⟩ : Fin R)
            (⟨min (idx (ix2 r (1 : Fin 2))).toInt.toNat (K - 1), by omega⟩ : Fin K)) := by
  obtain ⟨od, cd, ob, sb, sm, iv, ss, wf⟩ := d
  dsimp only at hoff hcoll hob hsim hivd
  subst hoff hcoll hob hsim hivd
  have hs0 : ss 0 = 1 := wf.2.2.2.2.2.2.2.2.2.2.2.1 0 (by simp)
  have hs1 : ss 1 = 1 := wf.2.2.2.2.2.2.2.2.2.2.2.1 1 (by simp)
  unfold Host.gather
  congr 1
  funext a
  refine Fin.ext ?_
  match a with
  | ⟨0, _⟩ =>
    show GatherDims.start _ (ix1 r) idx 0 + GatherDims.batchCoord _ (ix1 r) 0 + GatherDims.offCoord _ (ix1 r) 0 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (by simp)]
    have hsi : ∀ h, GatherDims.siIdx (⟨[], [0, 1], [], sb, [0, 1], 1, ss, wf⟩ :
          GatherDims ⟨2, ![R, K]⟩ ⟨2, ![R, 2]⟩ ⟨1, ![R]⟩) (ix1 r)
        ⟨List.idxOf (0 : Fin 2) [0, 1], h⟩ = ix2 r (0 : Fin 2) := by
      intro h
      funext b; refine Fin.ext ?_
      match b with
      | ⟨0, _⟩ => rfl
      | ⟨1, _⟩ => rfl
    rw [hsi]
    show min _ (R - ss 0) = _
    rw [hs0]
  | ⟨1, _⟩ =>
    show GatherDims.start _ (ix1 r) idx 1 + GatherDims.batchCoord _ (ix1 r) 1 + GatherDims.offCoord _ (ix1 r) 1 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (by simp)]
    have hsi : ∀ h, GatherDims.siIdx (⟨[], [0, 1], [], sb, [0, 1], 1, ss, wf⟩ :
          GatherDims ⟨2, ![R, K]⟩ ⟨2, ![R, 2]⟩ ⟨1, ![R]⟩) (ix1 r)
        ⟨List.idxOf (1 : Fin 2) [0, 1], h⟩ = ix2 r (1 : Fin 2) := by
      intro h
      funext b; refine Fin.ext ?_
      match b with
      | ⟨0, _⟩ => rfl
      | ⟨1, _⟩ => rfl
    rw [hsi]
    show min _ (K - ss 1) = _
    rw [hs1]

/-- A small natural number's 32-bit word, read signed and clamped into an axis that holds it, is the number. -/
theorem clamp_word (n N : Nat) (hn : n < N) (hN : N ≤ 2 ^ 31) : min (BitVec.ofNat 32 n).toInt.toNat (N - 1) = n := by
  rw [StableHlo.Predicate.toInt_ofNat_small n (by omega), Int.toNat_natCast]
  omega

/-- The rank-3 gather at a pair that holds the row's own number and an in-range entry number k: element (r, e) is the
    operand at (r, k, e). -/
theorem gather_pair_slice_words {R K E : Nat} (d : GatherDims ⟨3, ![R, K, E]⟩ ⟨2, ![R, 2]⟩ ⟨2, ![R, E]⟩)
    (hoff : d.offsetDims = [1]) (hcoll : d.collapsedSliceDims = [0, 1]) (hob : d.operandBatchingDims = [])
    (hsim : d.startIndexMap = [0, 1]) (hivd : d.indexVectorDim = 1) (hR : R ≤ 2 ^ 31) (hK : K ≤ 2 ^ 31)
    (x : (⟨3, ![R, K, E]⟩ : Shape).Idx → α) (idx : IVec ⟨2, ![R, 2]⟩ 32) (r : Fin R) (k : Fin K) (e : Fin E)
    (h0 : idx (ix2 r (0 : Fin 2)) = BitVec.ofNat 32 r.val) (h1 : idx (ix2 r (1 : Fin 2)) = BitVec.ofNat 32 k.val) :
    Host.gather d x idx (ix2 r e) = x (ix3 r k e) := by
  rw [gather_pair_slice d hoff hcoll hob hsim hivd (by have := k.isLt; omega) x idx r e]
  congr 1
  funext a
  refine Fin.ext ?_
  match a with
  | ⟨0, _⟩ => show min _ _ = r.val; rw [h0]; exact clamp_word r.val R r.isLt hR
  | ⟨1, _⟩ => show min _ _ = k.val; rw [h1]; exact clamp_word k.val K k.isLt hK
  | ⟨2, _⟩ => rfl

/-- The rank-2 gather at such a pair: element r is the operand at (r, k). -/
theorem gather_pair_entry_words {R K : Nat} (d : GatherDims ⟨2, ![R, K]⟩ ⟨2, ![R, 2]⟩ ⟨1, ![R]⟩)
    (hoff : d.offsetDims = []) (hcoll : d.collapsedSliceDims = [0, 1]) (hob : d.operandBatchingDims = [])
    (hsim : d.startIndexMap = [0, 1]) (hivd : d.indexVectorDim = 1) (hR : R ≤ 2 ^ 31) (hK : K ≤ 2 ^ 31)
    (x : (⟨2, ![R, K]⟩ : Shape).Idx → α) (idx : IVec ⟨2, ![R, 2]⟩ 32) (r : Fin R) (k : Fin K)
    (h0 : idx (ix2 r (0 : Fin 2)) = BitVec.ofNat 32 r.val) (h1 : idx (ix2 r (1 : Fin 2)) = BitVec.ofNat 32 k.val) :
    Host.gather d x idx (ix1 r) = x (ix2 r k) := by
  rw [gather_pair_entry d hoff hcoll hob hsim hivd (by have := k.isLt; omega) x idx r]
  congr 1
  funext a
  refine Fin.ext ?_
  match a with
  | ⟨0, _⟩ => show min _ _ = r.val; rw [h0]; exact clamp_word r.val R r.isLt hR
  | ⟨1, _⟩ => show min _ _ = k.val; rw [h1]; exact clamp_word k.val K k.isLt hK

end Cert.LibRowGather

end
-- ==== Proof.RefRow.lean ====
/-
  One row of the reference, at the ideal values: entry (r, 0) of its result is the row function `rowOut` of the
  argument arrays — the row's 144 first-layer pre-activations (128 routed from l1's weights and bias, 16 shared from
  l1_fact's), the stack from the row's index word, the later layers' weights transposed as the reference's matmuls read
  them.
-/
import proofs.«419300_j42795054137555_3_alg».proof.Proof.RefRead
import proofs.«419300_j42795054137555_3_alg».proof.Proof.Spec
import Idealize.ShloMosaic.Lib.ValueIdx
import Idealize.ShloMosaic.Lib.Pipeline.Value
import Idealize.ShloMosaic.Lib.StableHlo.Predicate
import Idealize.ShloMosaic.PureOps.Ideal.Laws
import proofs.«419300_j42795054137555_3_alg».proof.Proof.LibRowGather

noncomputable section

open scoped BigOperators
namespace Cert.ReferenceIdeal.Row

open Cert.ReferenceIdeal Cert.ReferenceIdeal.Gen Idealize.ShloMosaic Idealize.ShloMosaic.ValueIdx Cert.LayerStack
open Cert.ReferenceIdeal.ReadP

/-! ## Indices by their coordinates, and two facts about small words -/

theorem ix1_of {n : Nat} (i : (⟨1, ![n]⟩ : Shape).Idx) (a : Fin n) (h0 : (i 0).val = a.val) : i = ix1 a :=
  funext fun d => match d with | ⟨0, _⟩ => Fin.ext h0

theorem ix2_of {n0 n1 : Nat} (i : (⟨2, ![n0, n1]⟩ : Shape).Idx) (a : Fin n0) (b : Fin n1) (h0 : (i 0).val = a.val)
    (h1 : (i 1).val = b.val) : i = ix2 a b :=
  funext fun d => match d with | ⟨0, _⟩ => Fin.ext h0 | ⟨1, _⟩ => Fin.ext h1

/-- A small natural number's word is not negative. -/
theorem not_neg_word (n : Nat) (hn : n < 2 ^ 31) : IntOp.cmpi .slt (BitVec.ofNat 32 n) 0#32 = 0#1 := by
  refine eq_zero_of_ne_one fun h => ?_
  have := (StableHlo.Predicate.slt_iff_toNat (a := BitVec.ofNat 32 n) (b := 0#32)
    (by simp [BitVec.toNat_ofNat]; omega) (by simp)).mp h
  simp at this

section Row

variable (x0 : FVec Ideal S16384x3072 .f32) (x1 : IVec S16384 32) (x2 : FVec Ideal S128x3072 .f32)
  (x3 : FVec Ideal S128 .f32) (x4 : FVec Ideal S16x3072 .f32) (x5 : FVec Ideal S16 .f32) (x6 : FVec Ideal S256x30 .f32)
  (x7 : FVec Ideal S256 .f32) (x8 : FVec Ideal S8x32 .f32) (x9 : FVec Ideal S8 .f32) (r : Fin 16384) (k : Fin 8)

/-! ## The first layer: the 144 pre-activations of row r -/

/-- A routed pre-activation (unit j < 128) is the row of x against row j of l1's weights, plus l1's bias at j. -/
theorem pre1_routed (j : Fin 128) (h : j.val < 144) :
    pre1 x0 x2 x3 x4 x5 r ⟨j.val, h⟩ = (∑ d : Fin 3072, x0 (ix2 r d) * x2 (ix2 j d)) + x3 (ix1 j) := by
  unfold pre1
  rw [dif_pos (show (⟨j.val, h⟩ : Fin 144).val < 128 from j.isLt)]

/-- A shared pre-activation (unit 128 + e) is the row of x against row e of l1_fact's weights, plus its bias at e. -/
theorem pre1_shared (e : Fin 16) (h : 128 + e.val < 144) :
    pre1 x0 x2 x3 x4 x5 r ⟨128 + e.val, h⟩ = (∑ d : Fin 3072, x0 (ix2 r d) * x4 (ix2 e d)) + x5 (ix1 e) := by
  unfold pre1
  rw [dif_neg (show ¬ (⟨128 + e.val, h⟩ : Fin 144).val < 128 from by simp)]
  have he : ∀ h', (⟨128 + e.val - 128, h'⟩ : Fin 16) = e := fun h' => Fin.ext (by simp)
  simp only [he]

/-- The routed half of the first layer, x · l1_wᵀ + l1_b, at (r, j). -/
theorem v5_at (j : Fin 128) :
    val_main_v5 (F := Ideal) x0 x2 x3 (ix2 r j) = pre1 x0 x2 x3 x4 x5 r ⟨j.val, by have := j.isLt; omega⟩ := by
  have el : ∀ q : Fin 3072, lidx_main_v2 (ix2 r j) q = ix2 r q := fun q => ix2_of _ _ _ rfl rfl
  have er : ∀ q : Fin 3072, idx_main_v1 (ridx_main_v2 (ix2 r j) q) = ix2 j q := fun q => ix2_of _ _ _ rfl rfl
  have eb : idx_main_v3 (idx_main_v4 (ix2 r j)) = ix1 j := ix1_of _ _ rfl
  rw [pre1_routed, val_main_v5_apply, val_main_v2_apply, val_main_v4_apply, val_main_v3_apply, eb]
  simp only [val_main_v1_apply, el, er]
  rfl

/-- The shared half, x · l1f_wᵀ + l1f_b, at (r, e). -/
theorem v25_at (e : Fin 16) :
    val_main_v25 (F := Ideal) x0 x4 x5 (ix2 r e) = pre1 x0 x2 x3 x4 x5 r ⟨128 + e.val, by have := e.isLt; omega⟩ := by
  have el : ∀ q : Fin 3072, lidx_main_v22 (ix2 r e) q = ix2 r q := fun q => ix2_of _ _ _ rfl rfl
  have er : ∀ q : Fin 3072, idx_main_v21 (ridx_main_v22 (ix2 r e) q) = ix2 e q := fun q => ix2_of _ _ _ rfl rfl
  have eb : idx_main_v23 (idx_main_v24 (ix2 r e)) = ix1 e := ix1_of _ _ rfl
  rw [pre1_shared, val_main_v25_apply, val_main_v22_apply, val_main_v24_apply, val_main_v23_apply, eb]
  simp only [val_main_v21_apply, el, er]
  rfl

/-- The routed half seen as eight stacks of 16: entry (r, k, e) is unit 16k + e. -/
theorem v6_at (e : Fin 16) :
    val_main_v6 (F := Ideal) x0 x2 x3 (ix3 r k e)
      = val_main_v5 (F := Ideal) x0 x2 x3 (ix2 r (⟨16 * k.val + e.val, by have := k.isLt; have := e.isLt; omega⟩ : Fin 128)) := by
  rw [val_main_v6_apply]
  congr 1
  refine ix2_of _ _ _ ?_ ?_
  · show ((r.val * 8 + k.val) * 16 + e.val) / 128 = r.val
    have := k.isLt; have := e.isLt; omega
  · show ((r.val * 8 + k.val) * 16 + e.val) % 128 = 16 * k.val + e.val
    have := k.isLt; have := e.isLt; omega

/-! ## The index pairs (row number, stack number) the three gathers read -/

/-- Column 0 of the pair table is the row's own number: the row iota is never negative, so it stays. -/
theorem v19_at0 : val_main_v19 (F := Ideal) x1 (ix2 r (0 : Fin 2)) = BitVec.ofNat 32 r.val := by
  unfold val_main_v19
  rw [concatenate_pair_apply_left (t := S16384x2) (s₁ := S16384x1) (s₂ := S16384x1) (1 : Fin 2) _ _ concatenates_S16384x1_S16384x1_S16384x2_d1 (ix2 r (0 : Fin 2)) rfl
    (ix2 r (0 : Fin 1)) (fun b => match b with | ⟨0, _⟩ => rfl | ⟨1, _⟩ => rfl)]
  rw [val_main_v17_apply, val_main_v11_apply, val_main_v8_apply, val_main_v0_apply, val_main_v7_apply, val_main_c_apply]
  show Scalar.select (IntOp.cmpi .slt (BitVec.ofNat 32 r.val) 0#32) _ (BitVec.ofNat 32 r.val) = BitVec.ofNat 32 r.val
  rw [not_neg_word r.val (by have := r.isLt; omega), select_zero]

/-- Column 1 is the row's index word: it names a stack, so it is not negative and stays. -/
theorem v19_at1 (hk : x1 (ix1 r) = BitVec.ofNat 32 k.val) :
    val_main_v19 (F := Ideal) x1 (ix2 r (1 : Fin 2)) = BitVec.ofNat 32 k.val := by
  unfold val_main_v19
  rw [concatenate_pair_apply_right (t := S16384x2) (s₁ := S16384x1) (s₂ := S16384x1) (1 : Fin 2) _ _ concatenates_S16384x1_S16384x1_S16384x2_d1 (ix2 r (1 : Fin 2)) rfl rfl
    (ix2 r (0 : Fin 1)) (fun b hb => match b, hb with | ⟨0, _⟩, _ => rfl | ⟨1, _⟩, hb => absurd (Fin.ext rfl) hb) rfl]
  have e : idx_main_v18 (ix2 r (0 : Fin 1)) = ix1 r := ix1_of _ _ rfl
  rw [val_main_v18_apply, val_main_v16_apply, val_main_v13_apply, val_main_v12_apply, val_main_c_1_apply, e, hk,
    not_neg_word k.val (by have := k.isLt; omega), select_zero]

/-- The second and the third pair tables are the first one, built again. -/
theorem v54_eq : val_main_v54 (F := Ideal) x1 = val_main_v19 (F := Ideal) x1 := rfl
theorem v74_eq : val_main_v74 (F := Ideal) x1 = val_main_v19 (F := Ideal) x1 := rfl

/-! ## The stages of row r, when its index word names stack k -/

/-- The first gather picks stack k's 16 routed units. -/
theorem v20_at (hk : x1 (ix1 r) = BitVec.ofNat 32 k.val) (e : Fin 16) :
    val_main_v20 (F := Ideal) x0 x1 x2 x3 (ix2 r e)
      = pre1 x0 x2 x3 x4 x5 r ⟨16 * k.val + e.val, by have := k.isLt; have := e.isLt; omega⟩ := by
  unfold val_main_v20
  rw [Cert.LibRowGather.gather_pair_slice_words gather_S16384x8x16_S16384x2_S16384x16_1_01_n_n_01_1_1116 rfl rfl rfl rfl rfl
    (by norm_num) (by norm_num) _ _ r k e (v19_at0 x1 r) (v19_at1 x1 r k hk), v6_at x0 x2 x3 r k e, v5_at x0 x2 x3 x4 x5 r]

/-- The sum of the routed and the shared unit e < 15. -/
theorem v30_at (hk : x1 (ix1 r) = BitVec.ofNat 32 k.val) (e : Fin 15) :
    val_main_v30 (F := Ideal) x0 x1 x2 x3 x4 x5 (ix2 r e) = lin (pre1 x0 x2 x3 x4 x5 r) k e := by
  have e1 : idx_main_v26 (ix2 r e) = ix2 r (⟨e.val, by have := e.isLt; omega⟩ : Fin 16) := ix2_of _ _ _ rfl rfl
  have e2 : idx_main_v28 (ix2 r e) = ix2 r (⟨e.val, by have := e.isLt; omega⟩ : Fin 16) := ix2_of _ _ _ rfl rfl
  rw [val_main_v30_apply, val_main_v26_apply, val_main_v28_apply, e1, e2, v20_at x0 x1 x2 x3 x4 x5 r k hk,
    v25_at x0 x2 x3 x4 x5 r]
  rfl

/-- The 30 units before the clip: the 15 scaled squares, then the 15 sums. -/
theorem v34_at (hk : x1 (ix1 r) = BitVec.ofNat 32 k.val) (i : Fin 30) :
    val_main_v34 (F := Ideal) x0 x1 x2 x3 x4 x5 (ix2 r i)
      = if h : i.val < 15 then lin (pre1 x0 x2 x3 x4 x5 r) k ⟨i.val, h⟩ * lin (pre1 x0 x2 x3 x4 x5 r) k ⟨i.val, h⟩ * scaleW
        else lin (pre1 x0 x2 x3 x4 x5 r) k ⟨i.val - 15, by omega⟩ := by
  unfold val_main_v34
  by_cases h : i.val < 15
  · rw [dif_pos h, concatenate_pair_apply_left (t := S16384x30) (s₁ := S16384x15) (s₂ := S16384x15) (1 : Fin 2) _ _ concatenates_S16384x15_S16384x15_S16384x30_d1 (ix2 r i) rfl
      (ix2 r (⟨i.val, h⟩ : Fin 15)) (fun b => match b with | ⟨0, _⟩ => rfl | ⟨1, _⟩ => rfl)]
    rw [val_main_v33_apply, val_main_v31_apply, val_main_v32_apply, val_main_cst_apply, v30_at x0 x1 x2 x3 x4 x5 r k hk]
    rfl
  · rw [dif_neg h, concatenate_pair_apply_right (t := S16384x30) (s₁ := S16384x15) (s₂ := S16384x15) (1 : Fin 2) _ _ concatenates_S16384x15_S16384x15_S16384x30_d1 (ix2 r i) rfl rfl
      (ix2 r (⟨i.val - 15, by omega⟩ : Fin 15))
      (fun b hb => match b, hb with | ⟨0, _⟩, _ => rfl | ⟨1, _⟩, hb => absurd (Fin.ext rfl) hb)
      (by show i.val - 15 + 15 = i.val; omega)]
    exact v30_at x0 x1 x2 x3 x4 x5 r k hk _

/-- The 30 hidden units after the first layer. -/
theorem v35_at (hk : x1 (ix1 r) = BitVec.ofNat 32 k.val) (i : Fin 30) :
    val_main_v35 (F := Ideal) x0 x1 x2 x3 x4 x5 (ix2 r i) = hid1 (pre1 x0 x2 x3 x4 x5 r) k i := by
  rw [val_main_v35_apply, val_main_call0_v4_apply, val_main_call0_v3_apply, val_main_cst_4_apply, val_main_call0_v2_apply,
    val_main_call0_v1_apply, val_main_call0_v0_apply, val_main_cst_3_apply, v34_at x0 x1 x2 x3 x4 x5 r k hk]
  rfl

/-- The second layer, dense over the eight stacks. -/
theorem v40_at (hk : x1 (ix1 r) = BitVec.ofNat 32 k.val) (j : Fin 256) :
    val_main_v40 (F := Ideal) x0 x1 x2 x3 x4 x5 x6 x7 (ix2 r j)
      = lay2 (pre1 x0 x2 x3 x4 x5 r) k (fun i j => x6 (ix2 j i)) (fun j => x7 (ix1 j)) j := by
  have el : ∀ q : Fin 30, lidx_main_v37 (ix2 r j) q = ix2 r q := fun q => ix2_of _ _ _ rfl rfl
  have er : ∀ q : Fin 30, idx_main_v36 (ridx_main_v37 (ix2 r j) q) = ix2 j q := fun q => ix2_of _ _ _ rfl rfl
  have eb : idx_main_v38 (idx_main_v39 (ix2 r j)) = ix1 j := ix1_of _ _ rfl
  rw [val_main_v40_apply, val_main_v37_apply, val_main_v39_apply, val_main_v38_apply, eb]
  simp only [val_main_v36_apply, el, er, v35_at x0 x1 x2 x3 x4 x5 r k hk]
  rfl

/-- The second layer seen as eight stacks of 32: entry (r, k, e) is unit 32k + e. -/
theorem v41_at (e : Fin 32) :
    val_main_v41 (F := Ideal) x0 x1 x2 x3 x4 x5 x6 x7 (ix3 r k e)
      = val_main_v40 (F := Ideal) x0 x1 x2 x3 x4 x5 x6 x7
          (ix2 r (⟨32 * k.val + e.val, by have := k.isLt; have := e.isLt; omega⟩ : Fin 256)) := by
  rw [val_main_v41_apply]
  congr 1
  refine ix2_of _ _ _ ?_ ?_
  · show ((r.val * 8 + k.val) * 32 + e.val) / 256 = r.val
    have := k.isLt; have := e.isLt; omega
  · show ((r.val * 8 + k.val) * 32 + e.val) % 256 = 32 * k.val + e.val
    have := k.isLt; have := e.isLt; omega

/-- The 32 hidden units of stack k after the second layer: the second gather, then the clip. -/
theorem v56_at (hk : x1 (ix1 r) = BitVec.ofNat 32 k.val) (e : Fin 32) :
    val_main_v56 (F := Ideal) x0 x1 x2 x3 x4 x5 x6 x7 (ix2 r e)
      = hid2 (pre1 x0 x2 x3 x4 x5 r) k (fun i j => x6 (ix2 j i)) (fun j => x7 (ix1 j)) e := by
  have hg : val_main_v55 (F := Ideal) x0 x1 x2 x3 x4 x5 x6 x7 (ix2 r e)
      = val_main_v41 (F := Ideal) x0 x1 x2 x3 x4 x5 x6 x7 (ix3 r k e) := by
    unfold val_main_v55
    rw [v54_eq]
    exact Cert.LibRowGather.gather_pair_slice_words gather_S16384x8x32_S16384x2_S16384x32_1_01_n_n_01_1_1132 rfl rfl rfl rfl rfl
      (by norm_num) (by norm_num) _ _ r k e (v19_at0 x1 r) (v19_at1 x1 r k hk)
  rw [val_main_v56_apply, val_main_call1_v4_apply, val_main_call1_v3_apply, val_main_cst_10_apply, val_main_call1_v2_apply,
    val_main_call1_v1_apply, val_main_call1_v0_apply, val_main_cst_9_apply, hg, v41_at x0 x1 x2 x3 x4 x5 x6 x7 r k e,
    v40_at x0 x1 x2 x3 x4 x5 x6 x7 r k hk]
  rfl

/-- The output layer, dense over the eight stacks. -/
theorem v61_at (hk : x1 (ix1 r) = BitVec.ofNat 32 k.val) (c : Fin 8) :
    val_main_v61 (F := Ideal) x0 x1 x2 x3 x4 x5 x6 x7 x8 x9 (ix2 r c)
      = lay3 (pre1 x0 x2 x3 x4 x5 r) k (fun i j => x6 (ix2 j i)) (fun j => x7 (ix1 j))
          (fun i c => x8 (ix2 c i)) (fun c => x9 (ix1 c)) c := by
  have el : ∀ q : Fin 32, lidx_main_v58 (ix2 r c) q = ix2 r q := fun q => ix2_of _ _ _ rfl rfl
  have er : ∀ q : Fin 32, idx_main_v57 (ridx_main_v58 (ix2 r c) q) = ix2 c q := fun q => ix2_of _ _ _ rfl rfl
  have eb : idx_main_v59 (idx_main_v60 (ix2 r c)) = ix1 c := ix1_of _ _ rfl
  rw [val_main_v61_apply, val_main_v58_apply, val_main_v60_apply, val_main_v59_apply, eb]
  simp only [val_main_v57_apply, el, er, v56_at x0 x1 x2 x3 x4 x5 x6 x7 r k hk]
  rfl

/-- The third gather picks stack k's output unit. -/
theorem v75_at (hk : x1 (ix1 r) = BitVec.ofNat 32 k.val) :
    val_main_v75 (F := Ideal) x0 x1 x2 x3 x4 x5 x6 x7 x8 x9 (ix1 r)
      = lay3 (pre1 x0 x2 x3 x4 x5 r) k (fun i j => x6 (ix2 j i)) (fun j => x7 (ix1 j))
          (fun i c => x8 (ix2 c i)) (fun c => x9 (ix1 c)) k := by
  unfold val_main_v75
  rw [v74_eq, Cert.LibRowGather.gather_pair_entry_words gather_S16384x8_S16384x2_S16384_n_01_n_n_01_1_11 rfl rfl rfl rfl rfl
    (by norm_num) (by norm_num) _ _ r k (v19_at0 x1 r) (v19_at1 x1 r k hk), v61_at x0 x1 x2 x3 x4 x5 x6 x7 x8 x9 r k hk]

end Row

/-- Entry (r, 0) of the reference's result, when row r's index word names stack k. -/
theorem ref_row (x0 : FVec Ideal S16384x3072 .f32) (x1 : IVec S16384 32) (x2 : FVec Ideal S128x3072 .f32)
    (x3 : FVec Ideal S128 .f32) (x4 : FVec Ideal S16x3072 .f32) (x5 : FVec Ideal S16 .f32) (x6 : FVec Ideal S256x30 .f32)
    (x7 : FVec Ideal S256 .f32) (x8 : FVec Ideal S8x32 .f32) (x9 : FVec Ideal S8 .f32) (r : Fin 16384) (k : Fin 8)
    (hk : x1 (ix1 r) = BitVec.ofNat 32 k.val) :
    Cert.ReferenceIdeal.ReadP.val_main_v78 (F := Ideal) x0 x1 x2 x3 x4 x5 x6 x7 x8 x9 (ix2 r (0 : Fin 1))
      = rowOut (pre1 x0 x2 x3 x4 x5 r) k (fun i j => x6 (ix2 j i)) (fun j => x7 (ix1 j))
          (fun i c => x8 (ix2 c i)) (fun c => x9 (ix1 c)) := by
  have e76 : idx_main_v76 (ix2 r (0 : Fin 1)) = ix1 r := ix1_of _ _ rfl
  have e29 : idx_main_v29 (ix2 r (0 : Fin 1)) = ix2 r (15 : Fin 16) := ix2_of _ _ _ rfl rfl
  have e27 : idx_main_v27 (ix2 r (0 : Fin 1)) = ix2 r (15 : Fin 16) := ix2_of _ _ _ rfl rfl
  rw [val_main_v78_apply, val_main_v77_apply, val_main_v76_apply, val_main_v29_apply, val_main_v27_apply, e76, e29, e27,
    v75_at x0 x1 x2 x3 x4 x5 x6 x7 x8 x9 r k hk, v25_at x0 x2 x3 x4 x5 r, v20_at x0 x1 x2 x3 x4 x5 r k hk]
  rfl

end Cert.ReferenceIdeal.Row

end
-- ==== Proof.lean ====
/-
  The certificate of the LayerStacks kernel against its jnp reference, under the precondition that every float input is
  finite and every index word ls_indices[r] lies in [0, 8).

  Both programs compute, row by row, the function `G` of Proof/Spec.lean: a routed and a shared first linear layer
  (one matmul over the stacked weights in the kernel, two in the reference), the clipped square-and-linear features, a
  second routed layer, its clipped units, a routed output unit, plus the sixteenth routed and shared first-layer units.
  The kernel picks a row's stack by summing the eight stacks against the one-hot of the clamped index word, the
  reference by a gather at the index word; for a word in [0, 8) the clamp is the identity and the two picks agree on the
  extended reals (0 · x = 0 and 1 · x = x for every extended real), so finiteness of the float inputs is not used.
  Outside [0, 8) the programs differ (the kernel clamps a negative word to stack 0, the reference wraps it to stack
  8 + word), which is why the precondition carries the range.

  The idealized kernel's run with its result array named block by block and the reference's run are the generated
  modules; Proof/KernelRow.lean reads one row of a block, Proof/HostSide.lean the operand arrays the host operations in
  front of the pallas_call build, Proof/KernelArray.lean puts the 32 blocks together, Proof/RefRow.lean reads one row
  of the reference, Proof/IndexRange.lean reads the index range out of the precondition. `preserves` is `True`: the
  ideal pass rewrote nothing.
-/
import proofs.«419300_j42795054137555_3_alg».proof.Defs
import proofs.«419300_j42795054137555_3_alg».proof.Proof.Gen.Kernel
import proofs.«419300_j42795054137555_3_alg».proof.Proof.Gen.Kernel.Skeleton
import proofs.«419300_j42795054137555_3_alg».proof.Proof.Gen.Kernel.Launch
import proofs.«419300_j42795054137555_3_alg».proof.Proof.Gen.Kernel.Points
import proofs.«419300_j42795054137555_3_alg».proof.Proof.Gen.Kernel.Frame
import proofs.«419300_j42795054137555_3_alg».proof.Proof.Gen.KernelIdeal
import proofs.«419300_j42795054137555_3_alg».proof.Proof.Gen.KernelIdeal.Skeleton
import proofs.«419300_j42795054137555_3_alg».proof.Proof.Gen.KernelIdeal.Launch
import proofs.«419300_j42795054137555_3_alg».proof.Proof.Gen.KernelIdeal.Points
import proofs.«419300_j42795054137555_3_alg».proof.Proof.Gen.KernelIdeal.Frame
import proofs.«419300_j42795054137555_3_alg».proof.Proof.Gen.ReferenceIdeal
import proofs.«419300_j42795054137555_3_alg».proof.Proof.Gen.Pre_finite_inputs
import proofs.«419300_j42795054137555_3_alg».proof.Proof.Gen.KernelIdeal.Value
import proofs.«419300_j42795054137555_3_alg».proof.Proof.RefRun
import proofs.«419300_j42795054137555_3_alg».proof.Proof.RefRead
import proofs.«419300_j42795054137555_3_alg».proof.Proof.Spec
import proofs.«419300_j42795054137555_3_alg».proof.Proof.IndexRange
import proofs.«419300_j42795054137555_3_alg».proof.Proof.HostSide
import proofs.«419300_j42795054137555_3_alg».proof.Proof.KernelRow
import proofs.«419300_j42795054137555_3_alg».proof.Proof.KernelArray
import proofs.«419300_j42795054137555_3_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx Cert.LayerStack

/-- The word-level kernel runs and leaves its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments: its generated run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The reference run's composed result term is the last stage of the stage-by-stage reading. -/
theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v78 m c
      = Cert.ReferenceIdeal.ReadP.val_main_v78 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) := by
  unfold Cert.ReferenceIdeal.ValueP.res_main_v78; rfl

/-- At the ideal values, from memories that agree on the arguments, the kernel's result array ends at `G` of the
    arguments (the 32 blocks' rows) and the reference's at its composed term, which row by row is `G` too. -/
theorem algebraic : Cert.algebraic_KernelIdeal_ReferenceIdeal := by
  intro m ρ m' ρ' hpre hagree
  have hidx : ∀ (c : Dev Cert.KernelIdeal.nD) (r : Fin 16384),
      (m ((c : Thread Cert.KernelIdeal.nD Cert.KernelIdeal.τ).loc Cert.KernelIdeal.main_arg1) (ix1 r)).toNat < 8 :=
    fun c r => Cert.Proof.IndexRange.idx_lt m hpre c r
  refine ⟨fun c => Cert.KernelIdeal.Whole.Gm m c, Cert.KernelIdeal.Whole.run m ρ hidx, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9⟩ := hagree c
  rw [Cert.Proof.res_eq, e0, e1, e2, e3, e4, e5, e6, e7, e8, e9]
  funext i
  obtain ⟨r, q, rfl⟩ : ∃ (r : Fin 16384) (q : Fin 1), i = ix2 r q := ⟨i 0, i 1, eq_ix2 i⟩
  obtain rfl : q = 0 := Subsingleton.elim _ _
  exact Cert.ReferenceIdeal.Row.ref_row _ _ _ _ _ _ _ _ _ _ r _ (ofNat_stackOf _ (hidx c r)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
